-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S64x64 : Shape := ⟨2, ![64, 64]⟩
abbrev S64 : Shape := ⟨1, ![64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S1000000x64 .f32) (main_arg1 : FVec F S1000000x64 .f32) (main_arg2 : FVec F S64x64 .f32) (main_arg3 : FVec F S64x64 .f32) (main_arg4 : FVec F S64x64 .f32) (main_arg5 : FVec F S64x64 .f32) (main_arg6 : FVec F S64 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S1000000x64 : Shape := ⟨2, ![1000000, 64]⟩
abbrev S64x64 : Shape := ⟨2, ![64, 64]⟩
abbrev S64 : Shape := ⟨1, ![64]⟩
abbrev S1x64 : Shape := ⟨2, ![1, 64]⟩
abbrev S4000x64 : Shape := ⟨2, ![4000, 64]⟩

abbrev nBuf : Space → Nat
  | .hbm => 12
  | .vmem => 27
  | .smem => 0
  | _ => 0

abbrev bufTy : (tb : Table) → Fin (tcTables nBuf tb) → BufTy
  | .hbm, ⟨0, _⟩ => ⟨S1000000x64, .f32⟩
  | .hbm, ⟨1, _⟩ => ⟨S1000000x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1000000x64, .f32⟩
  | .local _ .vmem, ⟨0, _⟩ => ⟨S4000x64, .f32⟩
  | .local _ .vmem, ⟨1, _⟩ => ⟨S4000x64, .f32⟩
  | .local _ .vmem, ⟨2, _⟩ => ⟨S1x64, .f32⟩
  | .local _ .vmem, ⟨3, _⟩ => ⟨S1x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S64x64, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S64x64, .f32⟩
  | .local _ .vmem, ⟨21, _⟩ => ⟨S64x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S4000x64, .f32⟩
  | .local _ .vmem, ⟨26, _⟩ => ⟨S4000x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg9_1 : Ref sig .tc := ⟨.vmem, 26, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc2_sem0_0 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem9_1 : DmaSem sig := 26

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S4000x64_S4000x64_0_0 : ∀ a, (![0, 0] : Fin 2 → Nat) a + S4000x64.size a ≤ S4000x64.size a
  h_S4000x64 : 0 < S4000x64.numel
  reduces_S4000x64_S64 : S4000x64.Reduces [0] S64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  broadcasts_S1x64_S4000x64 : S1x64.Broadcasts S4000x64
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1000000x64.size a
  hwx0_0 : ∀ i : grid0.Coords, EltTy.bits .f32 = 32 ∨ (Rect.block (s := S1000000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x64.size a ≤ S1x64.size a
  hwx1_0 : ∀ i : grid1.Coords, EltTy.bits .f32 = 32 ∨ (Rect.block (s := S1x64) S1x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S1000000x64.size a
  hwx1_1 : ∀ i : grid1.Coords, EltTy.bits .f32 = 32 ∨ (Rect.block (s := S1000000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S1000000x64.size a
  hwx1_2 : ∀ i : grid1.Coords, EltTy.bits .f32 = 32 ∨ (Rect.block (s := S1000000x64) S4000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x64.size a ≤ S1x64.size a
  hwx2_0 : ∀ i : grid2.Coords, EltTy.bits .f32 = 32 ∨ (Rect.block (s := S1x64) S1x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S1000000x64.size a
  hwx2_2 : ∀ i : grid2.Coords, EltTy.bits .f32 = 32 ∨ (Rect.block (s := S1000000x64) S4000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S1000000x64.size a
  hwx2_3 : ∀ i : grid2.Coords, EltTy.bits .f32 = 32 ∨ (Rect.block (s := S1000000x64) S4000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x64.size a ≤ S1000000x64.size a
  hwx2_9 : ∀ i : grid2.Coords, EltTy.bits .f32 = 32 ∨ (Rect.block (s := S1000000x64) S4000x64.size (cc2_transform_9 i) (hinb2_9 i)).WholeWords (EltTy.packing .f32)

variable [Facts₀]

def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg1) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v0) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v2) S1x64.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v1) S1x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S4000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg2) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg3) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg4) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg5) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v0) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v4) S4000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S1000000x64 : Shape := ⟨2, ![1000000, 64]⟩
abbrev S64x64 : Shape := ⟨2, ![64, 64]⟩
abbrev S64 : Shape := ⟨1, ![64]⟩
abbrev S_ : Shape := ⟨0, ![]⟩
abbrev S1x64 : Shape := ⟨2, ![1, 64]⟩

abbrev nBuf : Space → Nat
  | .hbm => 43
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S1000000x64, .f32⟩
  | .hbm, ⟨8, _⟩ => ⟨S1000000x64, .f32⟩
  | .hbm, ⟨9, _⟩ => ⟨S1000000x64, .f32⟩
  | .hbm, ⟨10, _⟩ => ⟨S1000000x64, .f32⟩
  | .hbm, ⟨11, _⟩ => ⟨S1000000x64, .f32⟩
  | .hbm, ⟨12, _⟩ => ⟨S_, .f32⟩
  | .hbm, ⟨13, _⟩ => ⟨S1000000x64, .f32⟩
  | .hbm, ⟨14, _⟩ => ⟨S1000000x64, .f32⟩
  | .hbm, ⟨15, _⟩ => ⟨S_, .f32⟩
  | .hbm, ⟨16, _⟩ => ⟨S1000000x64, .f32⟩
  | .hbm, ⟨17, _⟩ => ⟨S1000000x64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S1x64, .f32⟩
  | .hbm, ⟨22, _⟩ => ⟨S1000000x64, .f32⟩
  | .hbm, ⟨23, _⟩ => ⟨S1000000x64, .f32⟩
  | .hbm, ⟨24, _⟩ => ⟨S1000000x64, .f32⟩
  | .hbm, ⟨25, _⟩ => ⟨S1000000x64, .f32⟩
  | .hbm, ⟨26, _⟩ => ⟨S1000000x64, .f32⟩
  | .hbm, ⟨27, _⟩ => ⟨S1000000x64, .f32⟩
  | .hbm, ⟨28, _⟩ => ⟨S_, .f32⟩
  | .hbm, ⟨29, _⟩ => ⟨S1000000x64, .f32⟩
  | .hbm, ⟨30, _⟩ => ⟨S1000000x64, .f32⟩
  | .hbm, ⟨31, _⟩ => ⟨S1000000x64, .f32⟩
  | .hbm, ⟨32, _⟩ => ⟨S1000000x64, .f32⟩
  | .hbm, ⟨33, _⟩ => ⟨S1000000x64, .f32⟩
  | .hbm, ⟨34, _⟩ => ⟨S_, .f32⟩
  | .hbm, ⟨35, _⟩ => ⟨S64, .f32⟩
  | .hbm, ⟨36, _⟩ => ⟨S1x64, .f32⟩
  | .hbm, ⟨37, _⟩ => ⟨S1x64, .f32⟩
  | .hbm, ⟨38, _⟩ => ⟨S_, .f32⟩
  | .hbm, ⟨39, _⟩ => ⟨S1x64, .f32⟩
  | .hbm, ⟨40, _⟩ => ⟨S1x64, .f32⟩
  | .hbm, ⟨41, _⟩ => ⟨S1000000x64, .f32⟩
  | .hbm, ⟨42, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S_S1000000x64 : S_.BroadcastsInDim S1000000x64 (![] : Fin 0 → Fin S1000000x64.rank)
  reducesTo_S1000000x64_S64_d0 : S1000000x64.ReducesTo [0] S64
  h_S_ : 0 < S_.numel
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1x64 : S_.BroadcastsInDim S1x64 (![] : Fin 0 → Fin S1x64.rank)
  dot_S1000000x64_S64x64_S1000000x64_1_0_0_1_n_n_wf : DotDims.WF S1000000x64 S64x64 S1000000x64 [1] [0] [0] [1] [] []

variable [Facts₀]

def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf

class Facts : Prop extends Facts₀ where

variable [Facts]
-- ==== Proof.Spec.lean ====
/-
  The mathematics both programs compute, over the extended reals, for e_s, e_o of shape [1000000, 64], four
  [64, 64] matrices V1, V2, W1, W2 and a vector w of length 64:

    colSum q      = ∑ r, e_o (r, q)                                        (column sums of e_o)
    scale q       = w q · colSum q
    upd (r, q)    = e_s (r, q) + max ((e_s W1)(r, q) + (e_o W2)(r, q) + e_s (r, q) · scale q) 0
                                 · 1 / (1 + exp (-((e_s V1)(r, q) + (e_o V2)(r, q))))
    sumSq q       = ∑ r, upd (r, q)²
    result (r, q) = upd (r, q) / max (sqrt (sumSq q)) 1e-12

  A row of `upd` depends on e_s and e_o only through that row (and, through `scale`, on the column sums of e_o),
  so it is written over rows; this is what lets a block of rows be read in place of the whole array.
  Also here: the two facts about finite sums that the row-block accumulations need.
-/
import Idealize.ShloMosaic.Lib.ValueIdx
import Idealize.ShloMosaic.PureOps.Ideal.Laws

noncomputable section

namespace GatedUpdate

open Idealize.ShloMosaic Idealize.ShloMosaic.ValueIdx

/-- The f32 literal 1.0 as an extended real (never evaluated: the same word on both sides). -/
abbrev one : EReal := Ideal.ofBits .f32 0x3F800000#32
/-- The f32 literal nearest 1e-12, the floor of the column norm. -/
abbrev tiny : EReal := Ideal.ofBits .f32 0x2B8CBCCC#32

/-- The logistic gate as both programs spell it: 1 / (1 + exp (-z)). -/
def gate (z : EReal) : EReal := Ideal.div one (one + Ideal.exp (-z))

/-- Row `r` of an array with 64 columns. -/
abbrev rowAt {n : ℕ} (x : (⟨2, ![n, 64]⟩ : Shape).Idx → EReal) (r : Fin n) : Fin 64 → EReal := fun k => x (ix2 r k)

/-- One entry of the updated embedding, from the row `a` of e_s, the row `b` of e_o, the four matrices and the
    column scale `u`. -/
def updRow (a b : Fin 64 → EReal) (V1 V2 W1 W2 : (⟨2, ![64, 64]⟩ : Shape).Idx → EReal) (u : Fin 64 → EReal)
    (q : Fin 64) : EReal :=
  a q + max ((∑ k : Fin 64, a k * W1 (ix2 k q)) + (∑ k : Fin 64, b k * W2 (ix2 k q)) + a q * u q) 0
    * gate ((∑ k : Fin 64, a k * V1 (ix2 k q)) + (∑ k : Fin 64, b k * V2 (ix2 k q)))

/-- Column sums of e_o. -/
def colSum (eo : (⟨2, ![1000000, 64]⟩ : Shape).Idx → EReal) (q : Fin 64) : EReal := ∑ r : Fin 1000000, eo (ix2 r q)

/-- The updated embedding at (r, q), for a given column scale `u`. -/
def upd (es eo : (⟨2, ![1000000, 64]⟩ : Shape).Idx → EReal) (V1 V2 W1 W2 : (⟨2, ![64, 64]⟩ : Shape).Idx → EReal)
    (u : Fin 64 → EReal) (r : Fin 1000000) (q : Fin 64) : EReal :=
  updRow (rowAt es r) (rowAt eo r) V1 V2 W1 W2 u q

/-- Column sums of the squares of the updated embedding. -/
def sumSq (es eo : (⟨2, ![1000000, 64]⟩ : Shape).Idx → EReal) (V1 V2 W1 W2 : (⟨2, ![64, 64]⟩ : Shape).Idx → EReal)
    (u : Fin 64 → EReal) (q : Fin 64) : EReal :=
  ∑ r : Fin 1000000, upd es eo V1 V2 W1 W2 u r q * upd es eo V1 V2 W1 W2 u r q

/-- The normalised entry, for a given column scale `u` and column norm `nrm`. -/
def normed (es eo : (⟨2, ![1000000, 64]⟩ : Shape).Idx → EReal) (V1 V2 W1 W2 : (⟨2, ![64, 64]⟩ : Shape).Idx → EReal)
    (u nrm : Fin 64 → EReal) (r : Fin 1000000) (q : Fin 64) : EReal :=
  Ideal.div (upd es eo V1 V2 W1 W2 u r q) (max (nrm q) tiny)

/-- The column scale both programs use: w q · colSum q. -/
def scale (eo : (⟨2, ![1000000, 64]⟩ : Shape).Idx → EReal) (w : (⟨1, ![64]⟩ : Shape).Idx → EReal) (q : Fin 64) : EReal :=
  w (ix1 q) * colSum eo q

/-- The whole result, as one function of the seven arguments. -/
def result (es eo : (⟨2, ![1000000, 64]⟩ : Shape).Idx → EReal) (V1 V2 W1 W2 : (⟨2, ![64, 64]⟩ : Shape).Idx → EReal)
    (w : (⟨1, ![64]⟩ : Shape).Idx → EReal) : (⟨2, ![1000000, 64]⟩ : Shape).Idx → EReal :=
  fun i => normed es eo V1 V2 W1 W2 (scale eo w)
    (fun q => Ideal.sqrt (sumSq es eo V1 V2 W1 W2 (scale eo w) q)) (i 0) (i 1)

/-! ## Sums over the rows, block by block -/

/-- Row `p` of row block `t` (250 blocks of 4000 rows). -/
def rowOf (t : Fin 250) (p : Fin 4000) : Fin 1000000 :=
  ⟨4000 * t.val + p.val, by have := t.isLt; have := p.isLt; omega⟩

/-- A sum over the million rows is the sum over the blocks of the sums over each block's rows. -/
theorem sum_rows {M : Type*} [AddCommMonoid M] (f : Fin 1000000 → M) :
    ∑ r : Fin 1000000, f r = ∑ t : Fin 250, ∑ p : Fin 4000, f (rowOf t p) := by
  let e : Fin 250 × Fin 4000 ≃ Fin 1000000 := finProdFinEquiv.trans (finCongr (by norm_num))
  rw [← Equiv.sum_comp e f, Fintype.sum_prod_type]
  refine Finset.sum_congr rfl fun t _ => Finset.sum_congr rfl fun p _ => ?_
  refine congrArg f (Fin.ext ?_)
  show (finProdFinEquiv (t, p)).val = 4000 * t.val + p.val
  rw [finProdFinEquiv_apply_val]
  show p.val + 4000 * t.val = 4000 * t.val + p.val
  omega

/-- A running total that starts at the first term and adds one term per step is the sum of the terms so far. -/
theorem chain_eq_sum {M : Type*} [AddCommMonoid M] (N : ℕ) (acc : (n : ℕ) → n < N → M) (S : Fin N → M)
    (h0 : ∀ h : 0 < N, acc 0 h = S ⟨0, h⟩)
    (hs : ∀ (n : ℕ) (h : n + 1 < N), acc (n + 1) h = acc n (Nat.lt_of_succ_lt h) + S ⟨n + 1, h⟩) :
    ∀ (n : ℕ) (h : n < N), acc n h = ∑ t : Fin (n + 1), S ⟨t.val, lt_of_lt_of_le t.isLt h⟩ := by
  intro n
  induction n with
  | zero =>
    intro h
    rw [h0 h, Fin.sum_univ_one]
    rfl
  | succ n ih =>
    intro h
    rw [hs n h, ih (Nat.lt_of_succ_lt h)]
    exact (Fin.sum_univ_castSucc (fun t : Fin (n + 1 + 1) => S ⟨t.val, lt_of_lt_of_le t.isLt h⟩)).symm

end GatedUpdate

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.TileValue.lean ====
/-
  What each kernel body stores, read at one index, as a function of the blocks it loaded — at the exact instance.

  * the column-sum body adds to the running row the column sums of its block of 4000 rows of e_o;
  * the sum-of-squares body adds to the running row the column sums of the squares of the updated embedding on its
    block of rows;
  * the final body stores the updated embedding on its block of rows divided by max (column norm, 1e-12).

  The updated embedding on a block is `GatedUpdate.updRow` of the block's rows: the four matrix products are finite
  sums over the 64 contraction coordinates (a change of float format is the identity here), the kernel's `0 - z`
  is `-z`, and the row [1, 64] of scales is read at its one row.
-/
import proofs.«148514_j89859305767507_1_alg».proof.Proof.Gen.KernelIdeal.Skeleton
import proofs.«148514_j89859305767507_1_alg».proof.Proof.Spec
import proofs.«148514_j89859305767507_1_alg».proof.Proof.LibMatmulPlain
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx GatedUpdate

/-- The column sums of a block of 4000 rows, through the cast [64] → [1, 64]. -/
theorem colSum_block (x : FVec Ideal S4000x64 .f32) (hacc : (0x00000000#32 : BitVec 32) = 0x00000000#32) (u : Fin 1) (q : Fin 64) :
    shapeCast S1x64 (multiReduction .add [0] S64 x 0x00000000#32 reduces_S4000x64_S64 (.inl rfl) hacc) shapeCasts_S64_S1x64 (ix2 u q)
      = ∑ p : Fin 4000, x (ix2 p q) := by
  refine (shapeCast_a_1a_apply _ shapeCasts_S64_S1x64 u q).trans ?_
  refine (Ideal.multiReduction_add_single x 0x00000000#32 reduces_S4000x64_S64 (.inl rfl) hacc (ix1 q)).trans ?_
  refine Finset.sum_congr rfl fun p _ => congrArg x (funext fun a => ?_)
  match a with
  | ⟨0, _⟩ => rfl
  | ⟨1, _⟩ => rfl

/-- A block of rows times a [64, 64] matrix, into the zero accumulator: entry (p, q) is ∑ k, l (p, k) · r (k, q). -/
theorem prod_block {φ₁ φ₂ : FTy} (l : FVec Ideal S4000x64 φ₁) (r : FVec Ideal S64x64 φ₂) (p : Fin 4000) (q : Fin 64) :
    matmul dot_S4000x64_S64x64_S4000x64_1_0_0_1_n_n none l r (constant S4000x64 .f32 0x00000000#32) (ix2 p q)
      = ∑ k : Fin 64, l (ix2 p k) * r (ix2 k q) :=
  MatmulPlain.matmul_zero_apply none l r p q

/-- The exponential of a vector, at an index. -/
theorem exp_at {s : Shape} (x : FVec Ideal s .f32) (i : s.Idx) : Idealize.ShloMosaic.exp x i = Ideal.exp (x i) := rfl

/-- The kernel's `0 - z` is `-z`. -/
theorem zero_word_sub (z : EReal) : Ideal.ofBits .f32 0x00000000#32 - z = -z := by
  rw [Ideal.ofBits_zero_f32, zero_sub]

/-- The updated embedding on a block of rows, at row `p` of the block and column `q`: `updRow` of the block's rows,
    the column scale read off the two [1, 64] rows `w` and `s` (the weight row and the column sums of e_o). -/
def blockUpd (es eo : FVec Ideal S4000x64 .f32) (V1 V2 W1 W2 : FVec Ideal S64x64 .f32) (w s : FVec Ideal S1x64 .f32)
    (p : Fin 4000) (q : Fin 64) : EReal :=
  updRow (rowAt es p) (rowAt eo p) V1 V2 W1 W2 (fun q => w (ix2 (0 : Fin 1) q) * s (ix2 (0 : Fin 1) q)) q

/-! ## The column-sum body -/

/-- The reset stores the zero row. -/
theorem reset0_at (j : S1x64.Idx) : (k0_pay1 (F := Ideal)) j = 0 := by
  unfold k0_pay1
  exact Ideal.ofBits_zero_f32

/-- One point adds its block's column sums to the running row. -/
theorem colsum_step (acc : FVec Ideal S1x64 .f32) (x : FVec Ideal S4000x64 .f32) (u : Fin 1) (q : Fin 64) :
    k0_pay2 acc x (ix2 u q) = acc (ix2 u q) + ∑ p : Fin 4000, x (ix2 p q) := by
  unfold k0_pay2
  simp only [addf_apply, shapeCast_self]
  exact congrArg (acc (ix2 u q) + ·) (colSum_block x _ u q)

/-! ## The sum-of-squares body -/

/-- The reset stores the zero row. -/
theorem reset1_at (j : S1x64.Idx) : (k1_pay2 (F := Ideal)) j = 0 := by
  unfold k1_pay2
  exact Ideal.ofBits_zero_f32

/-- One point adds, column by column, the squares of the updated embedding on its block of rows. -/
theorem sumsq_step (es eo : FVec Ideal S4000x64 .f32) (V1 V2 W1 W2 : FVec Ideal S64x64 .f32) (w s acc : FVec Ideal S1x64 .f32)
    (u : Fin 1) (q : Fin 64) :
    k1_pay1 es (k1_pay4 eo) (k1_pay5 W2) (k1_pay6 es eo V1 V2) (k1_pay7 es w s) (k1_pay8 es W1)
        (constant S4000x64 .f32 0x00000000#32) acc (ix2 u q)
      = acc (ix2 u q) + ∑ p : Fin 4000, blockUpd es eo V1 V2 W1 W2 w s p q * blockUpd es eo V1 V2 W1 W2 w s p q := by
  unfold k1_pay1
  simp only [addf_apply, shapeCast_self]
  refine congrArg (acc (ix2 u q) + ·) ((colSum_block _ _ u q).trans (Finset.sum_congr rfl fun p _ => ?_))
  have hv : (addf es (mulf (maximumf (addf (addf (k1_pay8 es W1)
        (matmul dot_S4000x64_S64x64_S4000x64_1_0_0_1_n_n none (k1_pay4 eo) (k1_pay5 W2) (constant S4000x64 .f32 0x00000000#32)))
        (k1_pay7 es w s)) (broadcast S4000x64 (Scalar.ofBits .f32 0x00000000#32))) (k1_pay6 es eo V1 V2))) (ix2 p q)
      = blockUpd es eo V1 V2 W1 W2 w s p q := by
    unfold k1_pay8 k1_pay6 k1_pay7 k1_pay5 k1_pay4 k1_pay3 blockUpd updRow gate
    simp only [addf_apply, mulf_apply, maximumf_apply, subf_apply, divf_apply, broadcast_apply, truncf_apply, exp_at,
      prod_block, shapeCast_self, broadcastTo_1b_ab_apply, Scalar.ofBits, Ideal.ofBits_def, zero_word_sub,
      Ideal.ofBits_zero_f32, zero_sub]
  rw [mulf_apply, hv]

/-! ## The final body -/

/-- The final body stores the updated embedding on its block of rows over max (column norm, 1e-12); `n` is the
    [1, 64] row of column norms. -/
theorem final_at (es eo : FVec Ideal S4000x64 .f32) (V1 V2 W1 W2 : FVec Ideal S64x64 .f32) (w s n : FVec Ideal S1x64 .f32)
    (p : Fin 4000) (q : Fin 64) :
    k2_pay1 (F := Ideal) es (k2_pay4 es eo V1 V2) (k2_pay5 es eo W1 W2 w s) n (ix2 p q)
      = Ideal.div (blockUpd es eo V1 V2 W1 W2 w s p q) (max (n (ix2 (0 : Fin 1) q)) tiny) := by
  unfold k2_pay1 k2_pay4 k2_pay5 k2_pay2 k2_pay3 blockUpd updRow gate
  simp only [addf_apply, mulf_apply, maximumf_apply, subf_apply, divf_apply, broadcast_apply, truncf_apply, exp_at,
    prod_block, shapeCast_self, broadcastTo_1b_ab_apply, Scalar.ofBits, Ideal.ofBits_def, zero_word_sub,
    Ideal.ofBits_zero_f32, zero_sub]

end Cert.KernelIdeal.Tile

end
-- ==== Proof.Region0.lean ====
/-
  The first kernel region: the column sums of e_o, accumulated over the 250 blocks of 4000 rows into ONE [1, 64]
  output block whose index never moves. The block is reset at the first point and written back after the last, so
  what the result array ends holding is (((0 + S₀) + S₁) + …) + S₂₄₉ with Sₜ the column sums of block t — which,
  addition of extended reals being associative and commutative, is the column sum over all million rows.
-/
import proofs.«148514_j89859305767507_1_alg».proof.Proof.Gen.KernelIdeal.Frame
import proofs.«148514_j89859305767507_1_alg».proof.Proof.TileValue
import Idealize.ShloMosaic.Lib.Pipeline.Value
import Idealize.ShloMosaic.Lib.Tactic

noncomputable section

namespace Cert.KernelIdeal.Region0

open Cert.KernelIdeal Cert.KernelIdeal.Gen Idealize.ShloMosaic Idealize.ShloMosaic.TcCoe Idealize.SL.Sem
open Idealize.ShloMosaic.ValueIdx GatedUpdate
open Idealize.ShloMosaic.Pipeline (Dat)

variable {F : FTy → Type} [FloatOps F]

theorem hz : (![0, 0] : Fin 2 → Nat) = fun _ => 0 := funext fun a => by fin_cases a <;> rfl

/-- A point that is not the first leaves, in the output's buffer holding `xo`, the body's one store: the running
    row `xo` plus the column sums of the block `x`. -/
theorem out_B (c : Dev nD) (i : grid0.Coords) (a1 : Memref sig .tc .vmem S4000x64 .f32) (h1 : a1.IsWhole)
    (a2 : Memref sig .tc .vmem S1x64 .f32) (h2 : a2.IsWhole) (hc : ¬cond0_0 i) (x : Vec F S4000x64 .f32) (xo : Vec F S1x64 .f32) :
    out0_B_1 c i a1 h1 a2 h2 hc x xo = k0_pay2 xo x := by
  unfold out0_B_1
  rw [View.read_writes_eq_canon _ _ _ (cover0_B_1 c i a1 h1 a2 h2 hc x xo)]
  unfold kernelRun0_B
  dsimp only
  sl_unfold_words
  rw [View.canon_unit_zero hz]
  simp only [View.readAt_eq_ld, h1.read_unread, h2.read_unread, View.ld_unit_zero (S := S4000x64) hz,
    View.ld_unit_zero (S := S1x64) hz]

/-- The first point stores the zero row, reads it back, and leaves the zero row plus the column sums of its block. -/
theorem out_A (c : Dev nD) (i : grid0.Coords) (a1 : Memref sig .tc .vmem S4000x64 .f32) (h1 : a1.IsWhole)
    (a2 : Memref sig .tc .vmem S1x64 .f32) (h2 : a2.IsWhole) (hc : cond0_0 i) (x : Vec F S4000x64 .f32) :
    out0_A_1 c i a1 h1 a2 h2 hc x = k0_pay2 (k0_pay1 (F := F)) x := by
  unfold out0_A_1
  rw [View.read_writes_eq_canon _ _ _ (cover0_A_1 c i a1 h1 a2 h2 hc x)]
  unfold kernelRun0_A
  dsimp only
  sl_unfold_words
  rw [View.canon_cons_unit_zero (S := S1x64) hz, View.readCov_unit_zero (S := S1x64) _ hz]
  simp only [View.readAt_eq_ld, h1.read_unread, View.ld_unit_zero (S := S4000x64) hz, View.ld_unit_zero (S := S1x64) hz,
    View.readCov_unit_zero (S := S1x64) _ hz]

/-! ## The running row is the sum of the blocks' column sums -/

section Value

variable (V : (c : Dev nD) → (b : Ref sig .tc) → Buf (Elt Ideal) ((c : Thread nD τ).loc b))

/-- e_o as the region finds it, and its block of rows at a point, by their literal types. -/
abbrev eoArr (c : Dev nD) : FVec Ideal S1000000x64 .f32 := V c main_arg1
abbrev eoBlk (c : Dev nD) (t : Fin cfg0.N) : FVec Ideal S4000x64 .f32 := iblk0 V c 0 t

/-- The input window's block index at point `t` is (t, 0): decided over the grid. -/
theorem idx_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- A grid point as a block number. -/
def blockNo (t : Fin cfg0.N) : Fin 250 := ⟨t.val, lt_of_lt_of_eq t.isLt N_0⟩

/-- Row `p` of the block at point `t` is row 4000 t + p of e_o. -/
theorem eoBlk_at (c : Dev nD) (t : Fin cfg0.N) (p : Fin 4000) (q : Fin 64) :
    eoBlk V c t (ix2 p q) = eoArr V c (ix2 (rowOf (blockNo t) p) q) := by
  show iblk0 V c 0 t (ix2 p q) = V c main_arg1 (ix2 (rowOf (blockNo t) p) q)
  unfold iblk0
  rw [View.read_apply]
  refine congrArg (V c main_arg1) (funext fun a => Fin.ext ?_)
  match a with
  | ⟨0, _⟩ =>
    show win0_0.index t 0 * 4000 + 1 * p.val = 4000 * t.val + p.val
    rw [(idx_in t).1]; omega
  | ⟨1, _⟩ =>
    show win0_0.index t 1 * 64 + 1 * q.val = q.val
    rw [(idx_in t).2]; omega

/-- The column sums of the block at point `t`. -/
def blockSum (c : Dev nD) (q : Fin 64) (t : Fin cfg0.N) : EReal := ∑ p : Fin 4000, eoBlk V c t (ix2 p q)

/-- After point `n` the output's buffer holds, in column `q`, the sum of the column sums of blocks 0 … n. -/
theorem outsAt_eq (c : Dev nD) (q : Fin 64) (n : ℕ) (h : n < cfg0.N) :
    outsAt0 V c n h (ix2 (0 : Fin 1) q) = ∑ t : Fin (n + 1), blockSum V c q ⟨t.val, lt_of_lt_of_le t.isLt h⟩ := by
  refine chain_eq_sum cfg0.N (fun n h => outsAt0 V c n h (ix2 (0 : Fin 1) q)) (blockSum V c q) (fun h0 => ?_) (fun n h => ?_) n h
  · show outsAt0 V c 0 h0 (ix2 (0 : Fin 1) q) = _
    rw [outsAt0_A V c ⟨0, h0⟩ rfl, out_A]
    refine (Tile.colsum_step (k0_pay1 (F := Ideal)) (eoBlk V c ⟨0, h0⟩) 0 q).trans ?_
    rw [Tile.reset0_at, zero_add]
    rfl
  · show outsAt0 V c (n + 1) h (ix2 (0 : Fin 1) q) = outsAt0 V c n (Nat.lt_of_succ_lt h) (ix2 (0 : Fin 1) q) + _
    have hN : cfg0.N = 250 := N_0
    have hB : ¬(⟨n + 1, h⟩ : Fin cfg0.N).val % 250 = 0 := by dsimp only; omega
    rw [outsAt0_B V c ⟨n + 1, h⟩ hB, out_B]
    exact Tile.colsum_step (outsAt0 V c n (Nat.lt_of_succ_lt h)) (eoBlk V c ⟨n + 1, h⟩) 0 q

/-- The last grid point, the one after which the output is written back. -/
def tLast : Fin cfg0.N := ⟨249, by rw [show cfg0.N = 250 from N_0]; decide⟩

/-- The column sums of e_o, as contents of the [1, 64] result array. -/
def sums (c : Dev nD) : Buf (Elt Ideal) ((c : Thread nD τ).loc main_v1) := fun j => colSum (eoArr V c) (j 1)

/-- After the last point the output's buffer holds the column sums over all rows: the blocks partition the rows. -/
theorem last_row (c : Dev nD) (h : 249 < cfg0.N) : outsAt0 V c 249 h = sums V c := by
  funext j
  obtain ⟨u, q, rfl⟩ : ∃ (u : Fin 1) (q : Fin 64), j = ix2 u q := ⟨j 0, j 1, eq_ix2 j⟩
  obtain rfl : u = 0 := Subsingleton.elim _ _
  rw [outsAt_eq V c q 249 h]
  show _ = colSum (eoArr V c) q
  unfold colSum
  rw [sum_rows]
  refine Finset.sum_congr rfl fun t _ => Finset.sum_congr rfl fun p _ => ?_
  exact eoBlk_at V c _ p q

/-- The one write-back, after the last point, writes that row: the output's block is the whole [1, 64] array. -/
theorem flushed_eq (c : Dev nD) (t : Fin cfg0.N) (hf : (cfg0.win 1).flush t = true) :
    (dat0 V c).flushed 1 t = ((cfg0.win 1).blk t).view.read (Elt Ideal) (sums V c) := by
  have hN : cfg0.N = 250 := N_0
  have h249 : t.val = 249 := by have := (flush0_1 t).mp hf; have := t.isLt; omega
  obtain rfl : t = tLast := Fin.ext h249
  show (cfg0.win 1).cut (grid0.coords tLast) ((dat0 V c).after 1 tLast) = _
  rw [after0_1]
  have e : outsAt0 V c tLast.val tLast.isLt = sums V c := last_row V c tLast.isLt
  rw [e]
  have hz' : (fun a => win0_1.index tLast a * main_v1.ty.shape.size a) = fun _ => 0 :=
    funext fun a => by fin_cases a <;> decide +kernel
  exact (Memref.read_access_unit_zero (Elt Ideal) main_v1 hz' (fun a => by rw [congrFun hz' a]; simp) (sums V c)).symm

/-- So region 0's result array ends holding the column sums of e_o as the region found it. -/
theorem final (c : Dev nD) : (dat0 V c).arrAt 1 cfg0.N = sums V c :=
  (dat0 V c).arrAt_eq_of_cover 1 (sums V c) (flushed_eq V c) fun i =>
    ⟨tLast, (flush0_1 tLast).mpr rfl, by
      show i ∈ ((View.whole main_v1).slice (win0_1.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win0_1.index tLast 0 * win0_1.size 0 ≤ (i 0 : Nat) ∧ (i 0 : Nat) < win0_1.index tLast 0 * win0_1.size 0 + win0_1.xsize (grid0.coords tLast) 0
        rw [show win0_1.index tLast 0 * win0_1.size 0 = 0 from by decide +kernel,
          show win0_1.xsize (grid0.coords tLast) 0 = 1 from by decide +kernel]
        omega
      | ⟨1, _⟩ =>
        show win0_1.index tLast 1 * win0_1.size 1 ≤ (i 1 : Nat) ∧ (i 1 : Nat) < win0_1.index tLast 1 * win0_1.size 1 + win0_1.xsize (grid0.coords tLast) 1
        rw [show win0_1.index tLast 1 * win0_1.size 1 = 0 from by decide +kernel,
          show win0_1.xsize (grid0.coords tLast) 1 = 64 from by decide +kernel]
        omega⟩

end Value

end Cert.KernelIdeal.Region0

end
-- ==== Proof.Region1.lean ====
/-
  The second kernel region: the column sums of the squares of the updated embedding, accumulated over the 250
  blocks of 4000 rows into ONE [1, 64] output block, reset at the first point and written back after the last.
  Each point recomputes the updated embedding on its block of rows of e_s and e_o from the four matrices, the weight
  row and the row of column sums of e_o the first region left; the result array ends holding, column by column,
  the sum over all million rows of the squares.
-/
import proofs.«148514_j89859305767507_1_alg».proof.Proof.Gen.KernelIdeal.Frame
import proofs.«148514_j89859305767507_1_alg».proof.Proof.TileValue
import Idealize.ShloMosaic.Lib.Pipeline.Value
import Idealize.ShloMosaic.Lib.Tactic

noncomputable section

namespace Cert.KernelIdeal.Region1

open Cert.KernelIdeal Cert.KernelIdeal.Gen Idealize.ShloMosaic Idealize.ShloMosaic.TcCoe Idealize.SL.Sem
open Idealize.ShloMosaic.ValueIdx GatedUpdate
open Idealize.ShloMosaic.Pipeline (Dat)

variable {F : FTy → Type} [FloatOps F]

theorem hz : (![0, 0] : Fin 2 → Nat) = fun _ => 0 := funext fun a => by fin_cases a <;> rfl

/-- What one point stores, from the blocks it loads and the running row `acc`. -/
abbrev stored (x0 : Vec F S1x64 .f32) (x1 x2 : Vec F S4000x64 .f32) (x3 x4 x5 x6 : Vec F S64x64 .f32) (x7 : Vec F S1x64 .f32) (acc : Vec F S1x64 .f32) : FVec F S1x64 .f32 :=
  k1_pay1 x1 (k1_pay4 x2) (k1_pay5 x6) (k1_pay6 x1 x2 x3 x4) (k1_pay7 x1 x7 x0) (k1_pay8 x1 x5)
    (constant S4000x64 .f32 0x00000000#32) acc

/-- A point that is not the first leaves, in the output's buffer holding `xo`, its one store over `xo`. -/
theorem out_B (c : Dev nD) (i : grid1.Coords) (a1 : Memref sig .tc .vmem S1x64 .f32) (h1 : a1.IsWhole) (a2 : Memref sig .tc .vmem S4000x64 .f32) (h2 : a2.IsWhole)
    (a3 : Memref sig .tc .vmem S4000x64 .f32) (h3 : a3.IsWhole) (a4 : Memref sig .tc .vmem S64x64 .f32) (h4 : a4.IsWhole)
    (a5 : Memref sig .tc .vmem S64x64 .f32) (h5 : a5.IsWhole) (a6 : Memref sig .tc .vmem S64x64 .f32) (h6 : a6.IsWhole)
    (a7 : Memref sig .tc .vmem S64x64 .f32) (h7 : a7.IsWhole) (a8 : Memref sig .tc .vmem S1x64 .f32) (h8 : a8.IsWhole)
    (a9 : Memref sig .tc .vmem S1x64 .f32) (h9 : a9.IsWhole) (hc : ¬cond1_0 i)
    (x0 : Vec F S1x64 .f32) (x1 x2 : Vec F S4000x64 .f32) (x3 x4 x5 x6 : Vec F S64x64 .f32) (x7 : Vec F S1x64 .f32) (xo : Vec F S1x64 .f32) :
    out1_B_8 c i a1 h1 a2 h2 a3 h3 a4 h4 a5 h5 a6 h6 a7 h7 a8 h8 a9 h9 hc x0 x1 x2 x3 x4 x5 x6 x7 xo = stored x0 x1 x2 x3 x4 x5 x6 x7 xo := by
  unfold out1_B_8
  rw [View.read_writes_eq_canon _ _ _ (cover1_B_8 c i a1 h1 a2 h2 a3 h3 a4 h4 a5 h5 a6 h6 a7 h7 a8 h8 a9 h9 hc x0 x1 x2 x3 x4 x5 x6 x7 xo)]
  unfold kernelRun1_B
  dsimp only
  sl_unfold_words
  rw [View.canon_unit_zero hz]
  simp only [View.readAt_eq_ld, h1.read_unread, h2.read_unread, h3.read_unread, h4.read_unread, h5.read_unread,
    h6.read_unread, h7.read_unread, h8.read_unread, h9.read_unread, View.ld_unit_zero (S := S4000x64) hz,
    View.ld_unit_zero (S := S1x64) hz, View.ld_unit_zero (S := S64x64) hz]

/-- The first point stores the zero row, reads it back, and leaves its store over the zero row. -/
theorem out_A (c : Dev nD) (i : grid1.Coords) (a1 : Memref sig .tc .vmem S1x64 .f32) (h1 : a1.IsWhole) (a2 : Memref sig .tc .vmem S4000x64 .f32) (h2 : a2.IsWhole)
    (a3 : Memref sig .tc .vmem S4000x64 .f32) (h3 : a3.IsWhole) (a4 : Memref sig .tc .vmem S64x64 .f32) (h4 : a4.IsWhole)
    (a5 : Memref sig .tc .vmem S64x64 .f32) (h5 : a5.IsWhole) (a6 : Memref sig .tc .vmem S64x64 .f32) (h6 : a6.IsWhole)
    (a7 : Memref sig .tc .vmem S64x64 .f32) (h7 : a7.IsWhole) (a8 : Memref sig .tc .vmem S1x64 .f32) (h8 : a8.IsWhole)
    (a9 : Memref sig .tc .vmem S1x64 .f32) (h9 : a9.IsWhole) (hc : cond1_0 i)
    (x0 : Vec F S1x64 .f32) (x1 x2 : Vec F S4000x64 .f32) (x3 x4 x5 x6 : Vec F S64x64 .f32) (x7 : Vec F S1x64 .f32) :
    out1_A_8 c i a1 h1 a2 h2 a3 h3 a4 h4 a5 h5 a6 h6 a7 h7 a8 h8 a9 h9 hc x0 x1 x2 x3 x4 x5 x6 x7 = stored x0 x1 x2 x3 x4 x5 x6 x7 (k1_pay2 (F := F)) := by
  unfold out1_A_8
  rw [View.read_writes_eq_canon _ _ _ (cover1_A_8 c i a1 h1 a2 h2 a3 h3 a4 h4 a5 h5 a6 h6 a7 h7 a8 h8 a9 h9 hc x0 x1 x2 x3 x4 x5 x6 x7)]
  unfold kernelRun1_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread,
    h6.read_unread, h7.read_unread, h8.read_unread, View.ld_unit_zero (S := S4000x64) hz,
    View.ld_unit_zero (S := S1x64) hz, View.ld_unit_zero (S := S64x64) hz, View.readCov_unit_zero (S := S1x64) _ hz]

/-! ## The blocks, read off the arrays as the region finds them -/

section Value

variable (V : (c : Dev nD) → (b : Ref sig .tc) → Buf (Elt Ideal) ((c : Thread nD τ).loc b))

/-- e_s and e_o as the region finds them, by their literal types. -/
abbrev esArr (c : Dev nD) : FVec Ideal S1000000x64 .f32 := V c main_arg0
abbrev eoArr (c : Dev nD) : FVec Ideal S1000000x64 .f32 := V c main_arg1
/-- The column scale the region computes with: the weight row times the row of column sums of e_o. -/
abbrev wRow (c : Dev nD) : FVec Ideal S1x64 .f32 := V c main_v0
abbrev sRow (c : Dev nD) : FVec Ideal S1x64 .f32 := V c main_v1
def scaleOf (c : Dev nD) (q : Fin 64) : EReal := wRow V c (ix2 (0 : Fin 1) q) * sRow V c (ix2 (0 : Fin 1) q)

/-- A grid point as a block number. -/
def blockNo (t : Fin cfg1.N) : Fin 250 := ⟨t.val, lt_of_lt_of_eq t.isLt N_1⟩

/-- Window 0's block is its whole array at every point: its block index is (0, 0), decided over the grid. -/
theorem idx_w0 : ∀ t : Fin cfg1.N, win1_0.index t (0 : Fin 2) = 0 ∧ win1_0.index t (1 : Fin 2) = 0 :=
  (by decide +kernel : ∀ t : Fin grid1.N, win1_0.index t (0 : Fin 2) = 0 ∧ win1_0.index t (1 : Fin 2) = 0)
abbrev sBlk (c : Dev nD) (t : Fin cfg1.N) : FVec Ideal S1x64 .f32 := iblk1 V c 0 t
theorem sBlk_eq (c : Dev nD) (t : Fin cfg1.N) : sBlk V c t = V c main_v1 := by
  show iblk1 V c 0 t = V c main_v1
  unfold iblk1
  have hz' : (fun a => win1_0.index t a * main_v1.ty.shape.size a) = fun _ => 0 := funext fun a => by
    match a with
    | ⟨0, _⟩ => show win1_0.index t 0 * 1 = 0; rw [(idx_w0 t).1]
    | ⟨1, _⟩ => show win1_0.index t 1 * 64 = 0; rw [(idx_w0 t).2]
  exact Memref.read_access_unit_zero (Elt Ideal) main_v1 hz' (fun a => by rw [congrFun hz' a]; simp) (V c main_v1)

/-- Window 3's block is its whole array at every point: its block index is (0, 0), decided over the grid. -/
theorem idx_w3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
abbrev v1Blk (c : Dev nD) (t : Fin cfg1.N) : FVec Ideal S64x64 .f32 := iblk1 V c 3 t
theorem v1Blk_eq (c : Dev nD) (t : Fin cfg1.N) : v1Blk V c t = V c main_arg2 := by
  show iblk1 V c 3 t = V c main_arg2
  unfold iblk1
  have hz' : (fun a => win1_3.index t a * main_arg2.ty.shape.size a) = fun _ => 0 := funext fun a => by
    match a with
    | ⟨0, _⟩ => show win1_3.index t 0 * 64 = 0; rw [(idx_w3 t).1]
    | ⟨1, _⟩ => show win1_3.index t 1 * 64 = 0; rw [(idx_w3 t).2]
  exact Memref.read_access_unit_zero (Elt Ideal) main_arg2 hz' (fun a => by rw [congrFun hz' a]; simp) (V c main_arg2)

/-- Window 4's block is its whole array at every point: its block index is (0, 0), decided over the grid. -/
theorem idx_w4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
abbrev v2Blk (c : Dev nD) (t : Fin cfg1.N) : FVec Ideal S64x64 .f32 := iblk1 V c 4 t
theorem v2Blk_eq (c : Dev nD) (t : Fin cfg1.N) : v2Blk V c t = V c main_arg3 := by
  show iblk1 V c 4 t = V c main_arg3
  unfold iblk1
  have hz' : (fun a => win1_4.index t a * main_arg3.ty.shape.size a) = fun _ => 0 := funext fun a => by
    match a with
    | ⟨0, _⟩ => show win1_4.index t 0 * 64 = 0; rw [(idx_w4 t).1]
    | ⟨1, _⟩ => show win1_4.index t 1 * 64 = 0; rw [(idx_w4 t).2]
  exact Memref.read_access_unit_zero (Elt Ideal) main_arg3 hz' (fun a => by rw [congrFun hz' a]; simp) (V c main_arg3)

/-- Window 5's block is its whole array at every point: its block index is (0, 0), decided over the grid. -/
theorem idx_w5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
abbrev w1Blk (c : Dev nD) (t : Fin cfg1.N) : FVec Ideal S64x64 .f32 := iblk1 V c 5 t
theorem w1Blk_eq (c : Dev nD) (t : Fin cfg1.N) : w1Blk V c t = V c main_arg4 := by
  show iblk1 V c 5 t = V c main_arg4
  unfold iblk1
  have hz' : (fun a => win1_5.index t a * main_arg4.ty.shape.size a) = fun _ => 0 := funext fun a => by
    match a with
    | ⟨0, _⟩ => show win1_5.index t 0 * 64 = 0; rw [(idx_w5 t).1]
    | ⟨1, _⟩ => show win1_5.index t 1 * 64 = 0; rw [(idx_w5 t).2]
  exact Memref.read_access_unit_zero (Elt Ideal) main_arg4 hz' (fun a => by rw [congrFun hz' a]; simp) (V c main_arg4)

/-- Window 6's block is its whole array at every point: its block index is (0, 0), decided over the grid. -/
theorem idx_w6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
abbrev w2Blk (c : Dev nD) (t : Fin cfg1.N) : FVec Ideal S64x64 .f32 := iblk1 V c 6 t
theorem w2Blk_eq (c : Dev nD) (t : Fin cfg1.N) : w2Blk V c t = V c main_arg5 := by
  show iblk1 V c 6 t = V c main_arg5
  unfold iblk1
  have hz' : (fun a => win1_6.index t a * main_arg5.ty.shape.size a) = fun _ => 0 := funext fun a => by
    match a with
    | ⟨0, _⟩ => show win1_6.index t 0 * 64 = 0; rw [(idx_w6 t).1]
    | ⟨1, _⟩ => show win1_6.index t 1 * 64 = 0; rw [(idx_w6 t).2]
  exact Memref.read_access_unit_zero (Elt Ideal) main_arg5 hz' (fun a => by rw [congrFun hz' a]; simp) (V c main_arg5)

/-- Window 7's block is its whole array at every point: its block index is (0, 0), decided over the grid. -/
theorem idx_w7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)
abbrev wBlk (c : Dev nD) (t : Fin cfg1.N) : FVec Ideal S1x64 .f32 := iblk1 V c 7 t
theorem wBlk_eq (c : Dev nD) (t : Fin cfg1.N) : wBlk V c t = V c main_v0 := by
  show iblk1 V c 7 t = V c main_v0
  unfold iblk1
  have hz' : (fun a => win1_7.index t a * main_v0.ty.shape.size a) = fun _ => 0 := funext fun a => by
    match a with
    | ⟨0, _⟩ => show win1_7.index t 0 * 1 = 0; rw [(idx_w7 t).1]
    | ⟨1, _⟩ => show win1_7.index t 1 * 64 = 0; rw [(idx_w7 t).2]
  exact Memref.read_access_unit_zero (Elt Ideal) main_v0 hz' (fun a => by rw [congrFun hz' a]; simp) (V c main_v0)

/-- The two row-blocked windows' block index at point `t` is (t, 0): decided over the grid. -/
theorem idx_rows : ∀ t : Fin cfg1.N, (win1_1.index t (0 : Fin 2) = t.val ∧ win1_1.index t (1 : Fin 2) = 0)
    ∧ (win1_2.index t (0 : Fin 2) = t.val ∧ win1_2.index t (1 : Fin 2) = 0) :=
  (by decide +kernel : ∀ t : Fin grid1.N, (win1_1.index t (0 : Fin 2) = t.val ∧ win1_1.index t (1 : Fin 2) = 0)
    ∧ (win1_2.index t (0 : Fin 2) = t.val ∧ win1_2.index t (1 : Fin 2) = 0))

abbrev esBlk (c : Dev nD) (t : Fin cfg1.N) : FVec Ideal S4000x64 .f32 := iblk1 V c 1 t
abbrev eoBlk (c : Dev nD) (t : Fin cfg1.N) : FVec Ideal S4000x64 .f32 := iblk1 V c 2 t

/-- Row `p` of the e_s block at point `t` is row 4000 t + p of e_s. -/
theorem esBlk_at (c : Dev nD) (t : Fin cfg1.N) (p : Fin 4000) (k : Fin 64) :
    esBlk V c t (ix2 p k) = esArr V c (ix2 (rowOf (blockNo t) p) k) := by
  show iblk1 V c 1 t (ix2 p k) = V c main_arg0 (ix2 (rowOf (blockNo t) p) k)
  unfold iblk1
  rw [View.read_apply]
  refine congrArg (V c main_arg0) (funext fun a => Fin.ext ?_)
  match a with
  | ⟨0, _⟩ =>
    show win1_1.index t 0 * 4000 + 1 * p.val = 4000 * t.val + p.val
    rw [(idx_rows t).1.1]; omega
  | ⟨1, _⟩ =>
    show win1_1.index t 1 * 64 + 1 * k.val = k.val
    rw [(idx_rows t).1.2]; omega

/-- Row `p` of the e_o block at point `t` is row 4000 t + p of e_o. -/
theorem eoBlk_at (c : Dev nD) (t : Fin cfg1.N) (p : Fin 4000) (k : Fin 64) :
    eoBlk V c t (ix2 p k) = eoArr V c (ix2 (rowOf (blockNo t) p) k) := by
  show iblk1 V c 2 t (ix2 p k) = V c main_arg1 (ix2 (rowOf (blockNo t) p) k)
  unfold iblk1
  rw [View.read_apply]
  refine congrArg (V c main_arg1) (funext fun a => Fin.ext ?_)
  match a with
  | ⟨0, _⟩ =>
    show win1_2.index t 0 * 4000 + 1 * p.val = 4000 * t.val + p.val
    rw [(idx_rows t).2.1]; omega
  | ⟨1, _⟩ =>
    show win1_2.index t 1 * 64 + 1 * k.val = k.val
    rw [(idx_rows t).2.2]; omega

/-- The updated embedding at row 4000 t + p, column q, with the region's own arrays and column scale. -/
def updAt (c : Dev nD) (r : Fin 1000000) (q : Fin 64) : EReal :=
  updRow (rowAt (esArr V c) r) (rowAt (eoArr V c) r) (V c main_arg2) (V c main_arg3) (V c main_arg4) (V c main_arg5)
    (scaleOf V c) q

/-- On the blocks of point `t` the block form of the update is the update at the block's rows. -/
theorem blockUpd_eq (c : Dev nD) (t : Fin cfg1.N) (p : Fin 4000) (q : Fin 64) :
    Tile.blockUpd (esBlk V c t) (eoBlk V c t) (v1Blk V c t) (v2Blk V c t) (w1Blk V c t) (w2Blk V c t) (wBlk V c t) (sBlk V c t) p q
      = updAt V c (rowOf (blockNo t) p) q := by
  rw [v1Blk_eq, v2Blk_eq, w1Blk_eq, w2Blk_eq, wBlk_eq, sBlk_eq]
  unfold Tile.blockUpd updAt
  have ea : rowAt (esBlk V c t) p = rowAt (esArr V c) (rowOf (blockNo t) p) := funext fun k => esBlk_at V c t p k
  have eb : rowAt (eoBlk V c t) p = rowAt (eoArr V c) (rowOf (blockNo t) p) := funext fun k => eoBlk_at V c t p k
  rw [ea, eb]
  rfl

/-! ## The running row is the sum of the blocks' sums of squares -/

/-- The column sums of the squares of the update on the block of point `t`. -/
def blockSum (c : Dev nD) (q : Fin 64) (t : Fin cfg1.N) : EReal :=
  ∑ p : Fin 4000, updAt V c (rowOf (blockNo t) p) q * updAt V c (rowOf (blockNo t) p) q

/-- What a point stores over the running row `acc`, in column `q`. -/
theorem stored_at (c : Dev nD) (t : Fin cfg1.N) (acc : FVec Ideal S1x64 .f32) (q : Fin 64) :
    stored (sBlk V c t) (esBlk V c t) (eoBlk V c t) (v1Blk V c t) (v2Blk V c t) (w1Blk V c t) (w2Blk V c t) (wBlk V c t) acc
        (ix2 (0 : Fin 1) q)
      = acc (ix2 (0 : Fin 1) q) + blockSum V c q t := by
  refine (Tile.sumsq_step (esBlk V c t) (eoBlk V c t) (v1Blk V c t) (v2Blk V c t) (w1Blk V c t) (w2Blk V c t) (wBlk V c t)
    (sBlk V c t) acc 0 q).trans ?_
  refine congrArg (acc (ix2 (0 : Fin 1) q) + ·) (Finset.sum_congr rfl fun p _ => ?_)
  rw [blockUpd_eq]

/-- After point `n` the output's buffer holds, in column `q`, the sum of the blocks' sums of squares for blocks 0 … n. -/
theorem outsAt_eq (c : Dev nD) (q : Fin 64) (n : ℕ) (h : n < cfg1.N) :
    outsAt1 V c n h (ix2 (0 : Fin 1) q) = ∑ t : Fin (n + 1), blockSum V c q ⟨t.val, lt_of_lt_of_le t.isLt h⟩ := by
  refine chain_eq_sum cfg1.N (fun n h => outsAt1 V c n h (ix2 (0 : Fin 1) q)) (blockSum V c q) (fun h0 => ?_) (fun n h => ?_) n h
  · show outsAt1 V c 0 h0 (ix2 (0 : Fin 1) q) = _
    rw [outsAt1_A V c ⟨0, h0⟩ rfl, out_A]
    refine (stored_at V c ⟨0, h0⟩ (k1_pay2 (F := Ideal)) q).trans ?_
    rw [Tile.reset1_at, zero_add]
  · show outsAt1 V c (n + 1) h (ix2 (0 : Fin 1) q) = outsAt1 V c n (Nat.lt_of_succ_lt h) (ix2 (0 : Fin 1) q) + _
    have hN : cfg1.N = 250 := N_1
    have hB : ¬(⟨n + 1, h⟩ : Fin cfg1.N).val % 250 = 0 := by dsimp only; omega
    rw [outsAt1_B V c ⟨n + 1, h⟩ hB, out_B]
    exact stored_at V c ⟨n + 1, h⟩ (outsAt1 V c n (Nat.lt_of_succ_lt h)) q

/-- The last grid point, the one after which the output is written back. -/
def tLast : Fin cfg1.N := ⟨249, by rw [show cfg1.N = 250 from N_1]; decide⟩

/-- The column sums of the squares of the update, as contents of the [1, 64] result array. -/
def colSumSq (c : Dev nD) (q : Fin 64) : EReal := ∑ r : Fin 1000000, updAt V c r q * updAt V c r q
def sumsq (c : Dev nD) : Buf (Elt Ideal) ((c : Thread nD τ).loc main_v2) := fun j => colSumSq V c (j 1)

/-- After the last point the output's buffer holds the sums over all rows: the blocks partition the rows. -/
theorem last_row (c : Dev nD) (h : 249 < cfg1.N) : outsAt1 V c 249 h = sumsq V c := by
  funext j
  obtain ⟨u, q, rfl⟩ : ∃ (u : Fin 1) (q : Fin 64), j = ix2 u q := ⟨j 0, j 1, eq_ix2 j⟩
  obtain rfl : u = 0 := Subsingleton.elim _ _
  rw [outsAt_eq V c q 249 h]
  show _ = colSumSq V c q
  unfold colSumSq
  rw [sum_rows]
  rfl

/-- The one write-back, after the last point, writes that row: the output's block is the whole [1, 64] array. -/
theorem flushed_eq (c : Dev nD) (t : Fin cfg1.N) (hf : (cfg1.win 8).flush t = true) :
    (dat1 V c).flushed 8 t = ((cfg1.win 8).blk t).view.read (Elt Ideal) (sumsq V c) := by
  have hN : cfg1.N = 250 := N_1
  have h249 : t.val = 249 := by have := (flush1_8 t).mp hf; have := t.isLt; omega
  obtain rfl : t = tLast := Fin.ext h249
  show (cfg1.win 8).cut (grid1.coords tLast) ((dat1 V c).after 8 tLast) = _
  rw [after1_8]
  have e : outsAt1 V c tLast.val tLast.isLt = sumsq V c := last_row V c tLast.isLt
  rw [e]
  have hz' : (fun a => win1_8.index tLast a * main_v2.ty.shape.size a) = fun _ => 0 :=
    funext fun a => by fin_cases a <;> decide +kernel
  exact (Memref.read_access_unit_zero (Elt Ideal) main_v2 hz' (fun a => by rw [congrFun hz' a]; simp) (sumsq V c)).symm

/-- So region 1's result array ends holding the column sums of the squares of the update. -/
theorem final (c : Dev nD) : (dat1 V c).arrAt 8 cfg1.N = sumsq V c :=
  (dat1 V c).arrAt_eq_of_cover 8 (sumsq V c) (flushed_eq V c) fun i =>
    ⟨tLast, (flush1_8 tLast).mpr rfl, by
      show i ∈ ((View.whole main_v2).slice (win1_8.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win1_8.index tLast 0 * win1_8.size 0 ≤ (i 0 : Nat) ∧ (i 0 : Nat) < win1_8.index tLast 0 * win1_8.size 0 + win1_8.xsize (grid1.coords tLast) 0
        rw [show win1_8.index tLast 0 * win1_8.size 0 = 0 from by decide +kernel,
          show win1_8.xsize (grid1.coords tLast) 0 = 1 from by decide +kernel]
        omega
      | ⟨1, _⟩ =>
        show win1_8.index tLast 1 * win1_8.size 1 ≤ (i 1 : Nat) ∧ (i 1 : Nat) < win1_8.index tLast 1 * win1_8.size 1 + win1_8.xsize (grid1.coords tLast) 1
        rw [show win1_8.index tLast 1 * win1_8.size 1 = 0 from by decide +kernel,
          show win1_8.xsize (grid1.coords tLast) 1 = 64 from by decide +kernel]
        omega⟩

end Value

end Cert.KernelIdeal.Region1

end
-- ==== Proof.Region2.lean ====
/-
  The third kernel region: every point recomputes the updated embedding on its block of 4000 rows of e_s and e_o
  (from the four matrices, the weight row and the row of column sums of e_o) and stores it divided, column by
  column, by max (column norm, 1e-12), the column norms read from the [1, 64] row the host square root left.
  Point t writes rows 4000 t … 4000 t + 3999 of the result, so the 250 blocks tile the [1000000, 64] array and it
  ends holding the normalised embedding everywhere.
-/
import proofs.«148514_j89859305767507_1_alg».proof.Proof.Gen.KernelIdeal.Frame
import proofs.«148514_j89859305767507_1_alg».proof.Proof.TileValue
import Idealize.ShloMosaic.Lib.Pipeline.Value
import Idealize.ShloMosaic.Lib.Tactic

noncomputable section

namespace Cert.KernelIdeal.Region2

open Cert.KernelIdeal Cert.KernelIdeal.Gen Idealize.ShloMosaic Idealize.ShloMosaic.TcCoe Idealize.SL.Sem
open Idealize.ShloMosaic.ValueIdx GatedUpdate
open Idealize.ShloMosaic.Pipeline (Dat)

variable {F : FTy → Type} [FloatOps F]

theorem hz : (![0, 0] : Fin 2 → Nat) = fun _ => 0 := funext fun a => by fin_cases a <;> rfl

/-- What the body leaves in the output's buffer is its one store, whose loads read the whole input buffers. -/
theorem out_eq (x0 x1 : Vec F S1x64 .f32) (x2 x3 : Vec F S4000x64 .f32) (x4 x5 x6 x7 : Vec F S64x64 .f32) (x8 : Vec F S1x64 .f32) :
    out2_9 x0 x1 x2 x3 x4 x5 x6 x7 x8 = k2_pay1 x2 (k2_pay4 x2 x3 x4 x5) (k2_pay5 x2 x3 x6 x7 x8 x0) x1 := by
  unfold out2_9
  rw [View.canon_unit_zero hz]
  simp only [View.ld_unit_zero (S := S4000x64) hz, View.ld_unit_zero (S := S64x64) hz, View.ld_unit_zero (S := S1x64) hz]

/-! ## The blocks, read off the arrays as the region finds them -/

section Value

variable (V : (c : Dev nD) → (b : Ref sig .tc) → Buf (Elt Ideal) ((c : Thread nD τ).loc b))

/-- e_s and e_o as the region finds them, and the three [1, 64] rows, by their literal types. -/
abbrev esArr (c : Dev nD) : FVec Ideal S1000000x64 .f32 := V c main_arg0
abbrev eoArr (c : Dev nD) : FVec Ideal S1000000x64 .f32 := V c main_arg1
abbrev wRow (c : Dev nD) : FVec Ideal S1x64 .f32 := V c main_v0
abbrev sRow (c : Dev nD) : FVec Ideal S1x64 .f32 := V c main_v1
abbrev nRow (c : Dev nD) : FVec Ideal S1x64 .f32 := V c main_v3
/-- The column scale the region computes with: the weight row times the row of column sums of e_o. -/
def scaleOf (c : Dev nD) (q : Fin 64) : EReal := wRow V c (ix2 (0 : Fin 1) q) * sRow V c (ix2 (0 : Fin 1) q)

/-- A grid point as a block number. -/
def blockNo (t : Fin cfg2.N) : Fin 250 := ⟨t.val, lt_of_lt_of_eq t.isLt N_2⟩

/-- Window 0's block is its whole array at every point: its block index is (0, 0), decided over the grid. -/
theorem idx_w0 : ∀ t : Fin cfg2.N, win2_0.index t (0 : Fin 2) = 0 ∧ win2_0.index t (1 : Fin 2) = 0 :=
  (by decide +kernel : ∀ t : Fin grid2.N, win2_0.index t (0 : Fin 2) = 0 ∧ win2_0.index t (1 : Fin 2) = 0)
abbrev sBlk (c : Dev nD) (t : Fin cfg2.N) : FVec Ideal S1x64 .f32 := iblk2 V c 0 t
theorem sBlk_eq (c : Dev nD) (t : Fin cfg2.N) : sBlk V c t = V c main_v1 := by
  show iblk2 V c 0 t = V c main_v1
  unfold iblk2
  have hz' : (fun a => win2_0.index t a * main_v1.ty.shape.size a) = fun _ => 0 := funext fun a => by
    match a with
    | ⟨0, _⟩ => show win2_0.index t 0 * 1 = 0; rw [(idx_w0 t).1]
    | ⟨1, _⟩ => show win2_0.index t 1 * 64 = 0; rw [(idx_w0 t).2]
  exact Memref.read_access_unit_zero (Elt Ideal) main_v1 hz' (fun a => by rw [congrFun hz' a]; simp) (V c main_v1)

/-- Window 1's block is its whole array at every point: its block index is (0, 0), decided over the grid. -/
theorem idx_w1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)
abbrev nBlk (c : Dev nD) (t : Fin cfg2.N) : FVec Ideal S1x64 .f32 := iblk2 V c 1 t
theorem nBlk_eq (c : Dev nD) (t : Fin cfg2.N) : nBlk V c t = V c main_v3 := by
  show iblk2 V c 1 t = V c main_v3
  unfold iblk2
  have hz' : (fun a => win2_1.index t a * main_v3.ty.shape.size a) = fun _ => 0 := funext fun a => by
    match a with
    | ⟨0, _⟩ => show win2_1.index t 0 * 1 = 0; rw [(idx_w1 t).1]
    | ⟨1, _⟩ => show win2_1.index t 1 * 64 = 0; rw [(idx_w1 t).2]
  exact Memref.read_access_unit_zero (Elt Ideal) main_v3 hz' (fun a => by rw [congrFun hz' a]; simp) (V c main_v3)

/-- Window 4's block is its whole array at every point: its block index is (0, 0), decided over the grid. -/
theorem idx_w4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
abbrev v1Blk (c : Dev nD) (t : Fin cfg2.N) : FVec Ideal S64x64 .f32 := iblk2 V c 4 t
theorem v1Blk_eq (c : Dev nD) (t : Fin cfg2.N) : v1Blk V c t = V c main_arg2 := by
  show iblk2 V c 4 t = V c main_arg2
  unfold iblk2
  have hz' : (fun a => win2_4.index t a * main_arg2.ty.shape.size a) = fun _ => 0 := funext fun a => by
    match a with
    | ⟨0, _⟩ => show win2_4.index t 0 * 64 = 0; rw [(idx_w4 t).1]
    | ⟨1, _⟩ => show win2_4.index t 1 * 64 = 0; rw [(idx_w4 t).2]
  exact Memref.read_access_unit_zero (Elt Ideal) main_arg2 hz' (fun a => by rw [congrFun hz' a]; simp) (V c main_arg2)

/-- Window 5's block is its whole array at every point: its block index is (0, 0), decided over the grid. -/
theorem idx_w5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
abbrev v2Blk (c : Dev nD) (t : Fin cfg2.N) : FVec Ideal S64x64 .f32 := iblk2 V c 5 t
theorem v2Blk_eq (c : Dev nD) (t : Fin cfg2.N) : v2Blk V c t = V c main_arg3 := by
  show iblk2 V c 5 t = V c main_arg3
  unfold iblk2
  have hz' : (fun a => win2_5.index t a * main_arg3.ty.shape.size a) = fun _ => 0 := funext fun a => by
    match a with
    | ⟨0, _⟩ => show win2_5.index t 0 * 64 = 0; rw [(idx_w5 t).1]
    | ⟨1, _⟩ => show win2_5.index t 1 * 64 = 0; rw [(idx_w5 t).2]
  exact Memref.read_access_unit_zero (Elt Ideal) main_arg3 hz' (fun a => by rw [congrFun hz' a]; simp) (V c main_arg3)

/-- Window 6's block is its whole array at every point: its block index is (0, 0), decided over the grid. -/
theorem idx_w6 : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)
abbrev w1Blk (c : Dev nD) (t : Fin cfg2.N) : FVec Ideal S64x64 .f32 := iblk2 V c 6 t
theorem w1Blk_eq (c : Dev nD) (t : Fin cfg2.N) : w1Blk V c t = V c main_arg4 := by
  show iblk2 V c 6 t = V c main_arg4
  unfold iblk2
  have hz' : (fun a => win2_6.index t a * main_arg4.ty.shape.size a) = fun _ => 0 := funext fun a => by
    match a with
    | ⟨0, _⟩ => show win2_6.index t 0 * 64 = 0; rw [(idx_w6 t).1]
    | ⟨1, _⟩ => show win2_6.index t 1 * 64 = 0; rw [(idx_w6 t).2]
  exact Memref.read_access_unit_zero (Elt Ideal) main_arg4 hz' (fun a => by rw [congrFun hz' a]; simp) (V c main_arg4)

/-- Window 7's block is its whole array at every point: its block index is (0, 0), decided over the grid. -/
theorem idx_w7 : ∀ t : Fin cfg2.N, win2_7.index t (0 : Fin 2) = 0 ∧ win2_7.index t (1 : Fin 2) = 0 :=
  (by decide +kernel : ∀ t : Fin grid2.N, win2_7.index t (0 : Fin 2) = 0 ∧ win2_7.index t (1 : Fin 2) = 0)
abbrev w2Blk (c : Dev nD) (t : Fin cfg2.N) : FVec Ideal S64x64 .f32 := iblk2 V c 7 t
theorem w2Blk_eq (c : Dev nD) (t : Fin cfg2.N) : w2Blk V c t = V c main_arg5 := by
  show iblk2 V c 7 t = V c main_arg5
  unfold iblk2
  have hz' : (fun a => win2_7.index t a * main_arg5.ty.shape.size a) = fun _ => 0 := funext fun a => by
    match a with
    | ⟨0, _⟩ => show win2_7.index t 0 * 64 = 0; rw [(idx_w7 t).1]
    | ⟨1, _⟩ => show win2_7.index t 1 * 64 = 0; rw [(idx_w7 t).2]
  exact Memref.read_access_unit_zero (Elt Ideal) main_arg5 hz' (fun a => by rw [congrFun hz' a]; simp) (V c main_arg5)

/-- Window 8's block is its whole array at every point: its block index is (0, 0), decided over the grid. -/
theorem idx_w8 : ∀ t : Fin cfg2.N, win2_8.index t (0 : Fin 2) = 0 ∧ win2_8.index t (1 : Fin 2) = 0 :=
  (by decide +kernel : ∀ t : Fin grid2.N, win2_8.index t (0 : Fin 2) = 0 ∧ win2_8.index t (1 : Fin 2) = 0)
abbrev wBlk (c : Dev nD) (t : Fin cfg2.N) : FVec Ideal S1x64 .f32 := iblk2 V c 8 t
theorem wBlk_eq (c : Dev nD) (t : Fin cfg2.N) : wBlk V c t = V c main_v0 := by
  show iblk2 V c 8 t = V c main_v0
  unfold iblk2
  have hz' : (fun a => win2_8.index t a * main_v0.ty.shape.size a) = fun _ => 0 := funext fun a => by
    match a with
    | ⟨0, _⟩ => show win2_8.index t 0 * 1 = 0; rw [(idx_w8 t).1]
    | ⟨1, _⟩ => show win2_8.index t 1 * 64 = 0; rw [(idx_w8 t).2]
  exact Memref.read_access_unit_zero (Elt Ideal) main_v0 hz' (fun a => by rw [congrFun hz' a]; simp) (V c main_v0)

/-- The three row-blocked windows' block index at point `t` is (t, 0): decided over the grid. -/
theorem idx_rows : ∀ t : Fin cfg2.N, (win2_2.index t (0 : Fin 2) = t.val ∧ win2_2.index t (1 : Fin 2) = 0)
    ∧ (win2_3.index t (0 : Fin 2) = t.val ∧ win2_3.index t (1 : Fin 2) = 0)
    ∧ (win2_9.index t (0 : Fin 2) = t.val ∧ win2_9.index t (1 : Fin 2) = 0) :=
  (by decide +kernel : ∀ t : Fin grid2.N, (win2_2.index t (0 : Fin 2) = t.val ∧ win2_2.index t (1 : Fin 2) = 0)
    ∧ (win2_3.index t (0 : Fin 2) = t.val ∧ win2_3.index t (1 : Fin 2) = 0)
    ∧ (win2_9.index t (0 : Fin 2) = t.val ∧ win2_9.index t (1 : Fin 2) = 0))

abbrev esBlk (c : Dev nD) (t : Fin cfg2.N) : FVec Ideal S4000x64 .f32 := iblk2 V c 2 t
abbrev eoBlk (c : Dev nD) (t : Fin cfg2.N) : FVec Ideal S4000x64 .f32 := iblk2 V c 3 t

/-- Row `p` of the e_s block at point `t` is row 4000 t + p of e_s. -/
theorem esBlk_at (c : Dev nD) (t : Fin cfg2.N) (p : Fin 4000) (k : Fin 64) :
    esBlk V c t (ix2 p k) = esArr V c (ix2 (rowOf (blockNo t) p) k) := by
  show iblk2 V c 2 t (ix2 p k) = V c main_arg0 (ix2 (rowOf (blockNo t) p) k)
  unfold iblk2
  rw [View.read_apply]
  refine congrArg (V c main_arg0) (funext fun a => Fin.ext ?_)
  match a with
  | ⟨0, _⟩ =>
    show win2_2.index t 0 * 4000 + 1 * p.val = 4000 * t.val + p.val
    rw [(idx_rows t).1.1]; omega
  | ⟨1, _⟩ =>
    show win2_2.index t 1 * 64 + 1 * k.val = k.val
    rw [(idx_rows t).1.2]; omega

/-- Row `p` of the e_o block at point `t` is row 4000 t + p of e_o. -/
theorem eoBlk_at (c : Dev nD) (t : Fin cfg2.N) (p : Fin 4000) (k : Fin 64) :
    eoBlk V c t (ix2 p k) = eoArr V c (ix2 (rowOf (blockNo t) p) k) := by
  show iblk2 V c 3 t (ix2 p k) = V c main_arg1 (ix2 (rowOf (blockNo t) p) k)
  unfold iblk2
  rw [View.read_apply]
  refine congrArg (V c main_arg1) (funext fun a => Fin.ext ?_)
  match a with
  | ⟨0, _⟩ =>
    show win2_3.index t 0 * 4000 + 1 * p.val = 4000 * t.val + p.val
    rw [(idx_rows t).2.1.1]; omega
  | ⟨1, _⟩ =>
    show win2_3.index t 1 * 64 + 1 * k.val = k.val
    rw [(idx_rows t).2.1.2]; omega

/-- The updated embedding at (r, q), with the region's own arrays and column scale. -/
def updAt (c : Dev nD) (r : Fin 1000000) (q : Fin 64) : EReal :=
  updRow (rowAt (esArr V c) r) (rowAt (eoArr V c) r) (V c main_arg2) (V c main_arg3) (V c main_arg4) (V c main_arg5)
    (scaleOf V c) q

/-- On the blocks of point `t` the block form of the update is the update at the block's rows. -/
theorem blockUpd_eq (c : Dev nD) (t : Fin cfg2.N) (p : Fin 4000) (q : Fin 64) :
    Tile.blockUpd (esBlk V c t) (eoBlk V c t) (v1Blk V c t) (v2Blk V c t) (w1Blk V c t) (w2Blk V c t) (wBlk V c t) (sBlk V c t) p q
      = updAt V c (rowOf (blockNo t) p) q := by
  rw [v1Blk_eq, v2Blk_eq, w1Blk_eq, w2Blk_eq, wBlk_eq, sBlk_eq]
  unfold Tile.blockUpd updAt
  have ea : rowAt (esBlk V c t) p = rowAt (esArr V c) (rowOf (blockNo t) p) := funext fun k => esBlk_at V c t p k
  have eb : rowAt (eoBlk V c t) p = rowAt (eoArr V c) (rowOf (blockNo t) p) := funext fun k => eoBlk_at V c t p k
  rw [ea, eb]
  rfl

/-! ## The result array -/

/-- The normalised entry at (r, q). -/
def outAt (c : Dev nD) (r : Fin 1000000) (q : Fin 64) : EReal :=
  Ideal.div (updAt V c r q) (max (nRow V c (ix2 (0 : Fin 1) q)) tiny)

/-- The normalised embedding, as contents of the [1000000, 64] result array. -/
def normedArr (c : Dev nD) : Buf (Elt Ideal) ((c : Thread nD τ).loc main_v4) := fun i => outAt V c (i 0) (i 1)

/-- What point `t` writes back is block `t` of the normalised embedding. -/
theorem flushed_eq (c : Dev nD) (t : Fin cfg2.N) :
    (dat2 V c).flushed 9 t = ((cfg2.win 9).blk t).view.read (Elt Ideal) (normedArr V c) := by
  show (cfg2.win 9).cut (grid2.coords t) ((dat2 V c).after 9 t) = _
  rw [after2_9, out_eq]
  funext j
  obtain ⟨p, q, rfl⟩ : ∃ (p : Fin 4000) (q : Fin 64), j = ix2 p q := ⟨j 0, j 1, eq_ix2 j⟩
  rw [View.read_apply]
  have hemb : ((cfg2.win 9).blk t).view.emb (ix2 p q) = ix2 (rowOf (blockNo t) p) q := funext fun a => Fin.ext (by
    match a with
    | ⟨0, _⟩ =>
      show win2_9.index t 0 * 4000 + 1 * p.val = 4000 * t.val + p.val
      rw [(idx_rows t).2.2.1]; omega
    | ⟨1, _⟩ =>
      show win2_9.index t 1 * 64 + 1 * q.val = q.val
      rw [(idx_rows t).2.2.2]; omega)
  rw [hemb]
  show k2_pay1 (F := Ideal) (esBlk V c t) (k2_pay4 (esBlk V c t) (eoBlk V c t) (v1Blk V c t) (v2Blk V c t))
      (k2_pay5 (esBlk V c t) (eoBlk V c t) (w1Blk V c t) (w2Blk V c t) (wBlk V c t) (sBlk V c t)) (nBlk V c t) (ix2 p q)
    = outAt V c (rowOf (blockNo t) p) q
  refine (Tile.final_at (esBlk V c t) (eoBlk V c t) (v1Blk V c t) (v2Blk V c t) (w1Blk V c t) (w2Blk V c t) (wBlk V c t)
    (sBlk V c t) (nBlk V c t) p q).trans ?_
  rw [blockUpd_eq, nBlk_eq]
  rfl

/-- An index of the result array is in point `t`'s block iff its row is one of the block's 4000 rows. -/
theorem mem_blk (t : Fin cfg2.N) (i : S1000000x64.Idx) :
    i ∈ ((cfg2.win 9).blk t).view.set ↔ ∀ a : Fin 2, win2_9.index t a * S4000x64.size a ≤ (i a).val
      ∧ (i a).val < win2_9.index t a * S4000x64.size a + S4000x64.size a := by
  show i ∈ ((View.whole main_v4).slice (win2_9.rect t)).set ↔ _
  rw [View.set_slice_whole, Rect.mem_set_unit]
  exact Iff.rfl

/-- So region 2's result array ends holding the normalised embedding. -/
theorem final (c : Dev nD) : (dat2 V c).arrAt 9 cfg2.N = normedArr V c :=
  (dat2 V c).arrAt_eq_of_cover 9 (normedArr V c) (fun t _ => flushed_eq V c t) fun i => by
    have hi0 : (i 0).val < 1000000 := (i 0).isLt
    have hi1 : (i 1).val < 64 := (i 1).isLt
    have hN : cfg2.N = 250 := N_2
    refine ⟨⟨(i 0).val / 4000, by omega⟩, flush2_9 _, ?_⟩
    rw [mem_blk]
    intro a
    match a with
    | ⟨0, _⟩ =>
      show win2_9.index _ (0 : Fin 2) * 4000 ≤ (i 0).val ∧ (i 0).val < win2_9.index _ (0 : Fin 2) * 4000 + 4000
      rw [(idx_rows _).2.2.1]; dsimp only; omega
    | ⟨1, _⟩ =>
      show win2_9.index _ (1 : Fin 2) * 64 ≤ (i 1).val ∧ (i 1).val < win2_9.index _ (1 : Fin 2) * 64 + 64
      rw [(idx_rows _).2.2.2]; omega

end Value

end Cert.KernelIdeal.Region2

end
-- ==== Proof.Walk.lean ====
/-
  The contents of every array a region reads, traced back from the segment boundary where the region is entered to
  the launch memory: an argument is never written; the weight row is the host's reshape of w; the row of column
  sums is what the first region leaves; the row of column norms is the host's square root of what the second region
  leaves. With these the result array after the third region is `GatedUpdate.result` of the seven arguments.
-/
import proofs.«148514_j89859305767507_1_alg».proof.Proof.Region0
import proofs.«148514_j89859305767507_1_alg».proof.Proof.Region1
import proofs.«148514_j89859305767507_1_alg».proof.Proof.Region2
import Idealize.ShloMosaic.Lib.StableHlo.Run
import Idealize.ShloMosaic.Lib.ValueLayout

set_option maxRecDepth 16384

noncomputable section

namespace Cert.KernelIdeal.Walk

open Cert.KernelIdeal Cert.KernelIdeal.Gen Idealize.ShloMosaic Idealize.ShloMosaic.TcCoe Idealize.SL.Sem
open Idealize.ShloMosaic.ValueIdx GatedUpdate
open Idealize.ShloMosaic.Pipeline (Dat)

variable (m : (ℓ : Loc nD τ sig) → Buf (Elt Ideal) ℓ) (ρ : Dev nD → PrngReg)

/-! ## The arguments, at each region's entry -/

theorem V1_main_arg0 (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg0) := rfl
theorem V2_main_arg0 (c : Dev nD) : V2 m ρ c main_arg0 = m ((c : Thread nD τ).loc main_arg0) :=
  calc W2 m ρ c (Proc.devRef .tc main_arg0)
    _ = W1 m ρ c (Proc.devRef .tc main_arg0) := W2_of_ne m ρ c main_arg0 (by decide)
    _ = m ((c : Thread nD τ).loc main_arg0) := V1_main_arg0 m ρ c
theorem V4_main_arg0 (c : Dev nD) : V4 m ρ c main_arg0 = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W2 m ρ c (Proc.devRef .tc main_arg0) := (W3_arr m ρ c 1).trans (((dat1 (V2 m ρ) c).arrAt_in 1 rfl _).trans (A_eq1 (V2 m ρ) c 1))
    _ = m ((c : Thread nD τ).loc main_arg0) := V2_main_arg0 m ρ c

theorem V1_main_arg1 (c : Dev nD) : V1 m ρ c main_arg1 = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg1) := rfl
theorem V2_main_arg1 (c : Dev nD) : V2 m ρ c main_arg1 = m ((c : Thread nD τ).loc main_arg1) :=
  calc W2 m ρ c (Proc.devRef .tc main_arg1)
    _ = W1 m ρ c (Proc.devRef .tc main_arg1) := (W2_arr m ρ c 0).trans (((dat0 (V1 m ρ) c).arrAt_in 0 rfl _).trans (A_eq0 (V1 m ρ) c 0))
    _ = m ((c : Thread nD τ).loc main_arg1) := V1_main_arg1 m ρ c
theorem V4_main_arg1 (c : Dev nD) : V4 m ρ c main_arg1 = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W2 m ρ c (Proc.devRef .tc main_arg1) := (W3_arr m ρ c 2).trans (((dat1 (V2 m ρ) c).arrAt_in 2 rfl _).trans (A_eq1 (V2 m ρ) c 2))
    _ = m ((c : Thread nD τ).loc main_arg1) := V2_main_arg1 m ρ c

theorem V1_main_arg2 (c : Dev nD) : V1 m ρ c main_arg2 = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg2) := rfl
theorem V2_main_arg2 (c : Dev nD) : V2 m ρ c main_arg2 = m ((c : Thread nD τ).loc main_arg2) :=
  calc W2 m ρ c (Proc.devRef .tc main_arg2)
    _ = W1 m ρ c (Proc.devRef .tc main_arg2) := W2_of_ne m ρ c main_arg2 (by decide)
    _ = m ((c : Thread nD τ).loc main_arg2) := V1_main_arg2 m ρ c
theorem V4_main_arg2 (c : Dev nD) : V4 m ρ c main_arg2 = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W2 m ρ c (Proc.devRef .tc main_arg2) := (W3_arr m ρ c 3).trans (((dat1 (V2 m ρ) c).arrAt_in 3 rfl _).trans (A_eq1 (V2 m ρ) c 3))
    _ = m ((c : Thread nD τ).loc main_arg2) := V2_main_arg2 m ρ c

theorem V1_main_arg3 (c : Dev nD) : V1 m ρ c main_arg3 = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg3) := rfl
theorem V2_main_arg3 (c : Dev nD) : V2 m ρ c main_arg3 = m ((c : Thread nD τ).loc main_arg3) :=
  calc W2 m ρ c (Proc.devRef .tc main_arg3)
    _ = W1 m ρ c (Proc.devRef .tc main_arg3) := W2_of_ne m ρ c main_arg3 (by decide)
    _ = m ((c : Thread nD τ).loc main_arg3) := V1_main_arg3 m ρ c
theorem V4_main_arg3 (c : Dev nD) : V4 m ρ c main_arg3 = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W2 m ρ c (Proc.devRef .tc main_arg3) := (W3_arr m ρ c 4).trans (((dat1 (V2 m ρ) c).arrAt_in 4 rfl _).trans (A_eq1 (V2 m ρ) c 4))
    _ = m ((c : Thread nD τ).loc main_arg3) := V2_main_arg3 m ρ c

theorem V1_main_arg4 (c : Dev nD) : V1 m ρ c main_arg4 = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg4) := rfl
theorem V2_main_arg4 (c : Dev nD) : V2 m ρ c main_arg4 = m ((c : Thread nD τ).loc main_arg4) :=
  calc W2 m ρ c (Proc.devRef .tc main_arg4)
    _ = W1 m ρ c (Proc.devRef .tc main_arg4) := W2_of_ne m ρ c main_arg4 (by decide)
    _ = m ((c : Thread nD τ).loc main_arg4) := V1_main_arg4 m ρ c
theorem V4_main_arg4 (c : Dev nD) : V4 m ρ c main_arg4 = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W2 m ρ c (Proc.devRef .tc main_arg4) := (W3_arr m ρ c 5).trans (((dat1 (V2 m ρ) c).arrAt_in 5 rfl _).trans (A_eq1 (V2 m ρ) c 5))
    _ = m ((c : Thread nD τ).loc main_arg4) := V2_main_arg4 m ρ c

theorem V1_main_arg5 (c : Dev nD) : V1 m ρ c main_arg5 = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg5) := rfl
theorem V2_main_arg5 (c : Dev nD) : V2 m ρ c main_arg5 = m ((c : Thread nD τ).loc main_arg5) :=
  calc W2 m ρ c (Proc.devRef .tc main_arg5)
    _ = W1 m ρ c (Proc.devRef .tc main_arg5) := W2_of_ne m ρ c main_arg5 (by decide)
    _ = m ((c : Thread nD τ).loc main_arg5) := V1_main_arg5 m ρ c
theorem V4_main_arg5 (c : Dev nD) : V4 m ρ c main_arg5 = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W2 m ρ c (Proc.devRef .tc main_arg5) := (W3_arr m ρ c 6).trans (((dat1 (V2 m ρ) c).arrAt_in 6 rfl _).trans (A_eq1 (V2 m ρ) c 6))
    _ = m ((c : Thread nD τ).loc main_arg5) := V2_main_arg5 m ρ c

/-! ## The weight row: the host's reshape of w, kept by every region that reads it -/

theorem V1_main_v0 (c : Dev nD) :
    V1 m ρ c main_v0 = shapeCast S1x64 (m ((c : Thread nD τ).loc main_arg6)) shapeCasts_S64_S1x64 := by
  show StableHlo.after hostOps0 (W0 m ρ c) (Proc.devRef .tc main_v0) = _
  after_results
  rfl
theorem V2_main_v0 (c : Dev nD) :
    V2 m ρ c main_v0 = shapeCast S1x64 (m ((c : Thread nD τ).loc main_arg6)) shapeCasts_S64_S1x64 :=
  (W2_of_ne m ρ c main_v0 (by decide)).trans (V1_main_v0 m ρ c)
theorem V4_main_v0 (c : Dev nD) :
    V4 m ρ c main_v0 = shapeCast S1x64 (m ((c : Thread nD τ).loc main_arg6)) shapeCasts_S64_S1x64 :=
  calc W4 m ρ c (Proc.devRef .tc main_v0)
    _ = W3 m ρ c (Proc.devRef .tc main_v0) := StableHlo.after_of_forall_not_mem (b := Proc.devRef .tc main_v0) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W2 m ρ c (Proc.devRef .tc main_v0) := (W3_arr m ρ c 7).trans (((dat1 (V2 m ρ) c).arrAt_in 7 rfl _).trans (A_eq1 (V2 m ρ) c 7))
    _ = _ := V2_main_v0 m ρ c

/-! ## The row of column sums of e_o: what the first region leaves -/

theorem V2_main_v1 (c : Dev nD) : V2 m ρ c main_v1 = Region0.sums (V1 m ρ) c :=
  (W2_arr m ρ c 1).trans (Region0.final (V1 m ρ) c)
theorem V4_main_v1 (c : Dev nD) : V4 m ρ c main_v1 = Region0.sums (V1 m ρ) c :=
  calc W4 m ρ c (Proc.devRef .tc main_v1)
    _ = W3 m ρ c (Proc.devRef .tc main_v1) := StableHlo.after_of_forall_not_mem (b := Proc.devRef .tc main_v1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W2 m ρ c (Proc.devRef .tc main_v1) := (W3_arr m ρ c 0).trans (((dat1 (V2 m ρ) c).arrAt_in 0 rfl _).trans (A_eq1 (V2 m ρ) c 0))
    _ = _ := V2_main_v1 m ρ c

/-! ## The row of column norms: the host's square root of what the second region leaves -/

/-- What the second region leaves, by its literal type. -/
abbrev sumsqRow (c : Dev nD) : FVec Ideal S1x64 .f32 := Region1.sumsq (V2 m ρ) c

theorem V4_main_v3 (c : Dev nD) :
    V4 m ρ c main_v3 = Host.sqrt (F := Ideal) (sumsqRow m ρ c) := by
  show StableHlo.after hostOps2 (W3 m ρ c) (Proc.devRef .tc main_v3) = _
  after_results
  exact congrArg (Host.sqrt (F := Ideal)) ((W3_arr m ρ c 8).trans (Region1.final (V2 m ρ) c))

/-! ## The result array -/

/-- The column scale the second region computes with is w q · colSum q of the arguments. -/
theorem scale2 (c : Dev nD) :
    Region1.scaleOf (V2 m ρ) c = scale (m ((c : Thread nD τ).loc main_arg1)) (m ((c : Thread nD τ).loc main_arg6)) := by
  funext q
  have hw : Region1.wRow (V2 m ρ) c = shapeCast S1x64 (m ((c : Thread nD τ).loc main_arg6)) shapeCasts_S64_S1x64 :=
    V2_main_v0 m ρ c
  have hs : Region1.sRow (V2 m ρ) c (ix2 (0 : Fin 1) q) = colSum (m ((c : Thread nD τ).loc main_arg1)) q := by
    refine (congrFun (V2_main_v1 m ρ c) (ix2 (0 : Fin 1) q)).trans ?_
    show colSum (V1 m ρ c main_arg1) q = _
    rw [V1_main_arg1]
  unfold Region1.scaleOf scale
  rw [hw, hs, shapeCast_a_1a_apply]

/-- And so is the one the third region computes with. -/
theorem scale4 (c : Dev nD) :
    Region2.scaleOf (V4 m ρ) c = scale (m ((c : Thread nD τ).loc main_arg1)) (m ((c : Thread nD τ).loc main_arg6)) := by
  funext q
  have hw : Region2.wRow (V4 m ρ) c = shapeCast S1x64 (m ((c : Thread nD τ).loc main_arg6)) shapeCasts_S64_S1x64 :=
    V4_main_v0 m ρ c
  have hs : Region2.sRow (V4 m ρ) c (ix2 (0 : Fin 1) q) = colSum (m ((c : Thread nD τ).loc main_arg1)) q := by
    refine (congrFun (V4_main_v1 m ρ c) (ix2 (0 : Fin 1) q)).trans ?_
    show colSum (V1 m ρ c main_arg1) q = _
    rw [V1_main_arg1]
  unfold Region2.scaleOf scale
  rw [hw, hs, shapeCast_a_1a_apply]

/-- The update the second region squares is the update of the arguments. -/
theorem upd2 (c : Dev nD) (r : Fin 1000000) (q : Fin 64) :
    Region1.updAt (V2 m ρ) c r q
      = upd (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (scale (m ((c : Thread nD τ).loc main_arg1)) (m ((c : Thread nD τ).loc main_arg6))) r q := by
  unfold Region1.updAt upd
  rw [scale2]
  show updRow (rowAt (V2 m ρ c main_arg0) r) (rowAt (V2 m ρ c main_arg1) r) (V2 m ρ c main_arg2) (V2 m ρ c main_arg3)
    (V2 m ρ c main_arg4) (V2 m ρ c main_arg5) _ q = _
  rw [V2_main_arg0, V2_main_arg1, V2_main_arg2, V2_main_arg3, V2_main_arg4, V2_main_arg5]

/-- The update the third region normalises is the update of the arguments. -/
theorem upd4 (c : Dev nD) (r : Fin 1000000) (q : Fin 64) :
    Region2.updAt (V4 m ρ) c r q
      = upd (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (scale (m ((c : Thread nD τ).loc main_arg1)) (m ((c : Thread nD τ).loc main_arg6))) r q := by
  unfold Region2.updAt upd
  rw [scale4]
  show updRow (rowAt (V4 m ρ c main_arg0) r) (rowAt (V4 m ρ c main_arg1) r) (V4 m ρ c main_arg2) (V4 m ρ c main_arg3)
    (V4 m ρ c main_arg4) (V4 m ρ c main_arg5) _ q = _
  rw [V4_main_arg0, V4_main_arg1, V4_main_arg2, V4_main_arg3, V4_main_arg4, V4_main_arg5]

/-- The host's square root of a row, at an index. -/
theorem host_sqrt_at (x : FVec Ideal S1x64 .f32) (j : S1x64.Idx) : Host.sqrt (F := Ideal) x j = Ideal.sqrt (x j) := rfl

/-- The column norm the third region divides by is the square root of the arguments' column sum of squares. -/
theorem norm4 (c : Dev nD) (q : Fin 64) :
    V4 m ρ c main_v3 (ix2 (0 : Fin 1) q)
      = Ideal.sqrt (sumSq (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (scale (m ((c : Thread nD τ).loc main_arg1)) (m ((c : Thread nD τ).loc main_arg6))) q) := by
  rw [V4_main_v3, host_sqrt_at]
  have h2 : sumsqRow m ρ c (ix2 (0 : Fin 1) q) = Region1.colSumSq (V2 m ρ) c q := rfl
  rw [h2]
  unfold Region1.colSumSq sumSq
  refine congrArg Ideal.sqrt (Finset.sum_congr rfl fun r _ => ?_)
  rw [upd2]

/-- After the run the result array holds `result` of the seven arguments. -/
theorem result_eq (c : Dev nD) :
    W5 m ρ c (Proc.devRef .tc main_v4)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine ((W5_arr m ρ c 9).trans (Region2.final (V4 m ρ) c)).trans ?_
  funext i
  obtain ⟨r, q, rfl⟩ : ∃ (r : Fin 1000000) (q : Fin 64), i = ix2 r q := ⟨i 0, i 1, eq_ix2 i⟩
  show Region2.outAt (V4 m ρ) c r q = _
  unfold Region2.outAt
  show Ideal.div (Region2.updAt (V4 m ρ) c r q) (max (V4 m ρ c main_v3 (ix2 (0 : Fin 1) q)) tiny) = _
  rw [upd4, norm4]
  rfl

end Cert.KernelIdeal.Walk

end
-- ==== Proof.RefValue.lean ====
/-
  The reference program, read one operation at a time at an index, IS `GatedUpdate.result` of its seven arguments:
  its four matrix products are the sums over the 64 contraction coordinates, its sigmoid is spelt
  1 / (1 + exp (-z)), its two column reductions are 0 + ∑ over the million rows, and its broadcasts read the
  [64] vectors and [1, 64] rows at the column.
-/
import proofs.«148514_j89859305767507_1_alg».proof.Proof.Gen.ReferenceIdeal.Read
import proofs.«148514_j89859305767507_1_alg».proof.Proof.Spec

noncomputable section

namespace Cert.ReferenceIdeal.RefValue

open Cert.ReferenceIdeal Cert.ReferenceIdeal.Gen Cert.ReferenceIdeal.Read Idealize.ShloMosaic Idealize.ShloMosaic.ValueIdx GatedUpdate

variable (x0 x1 : FVec Ideal S1000000x64 .f32) (x2 x3 x4 x5 : FVec Ideal S64x64 .f32) (x6 : FVec Ideal S64 .f32)

/-! ## The composed index maps, at an index built from coordinates -/

theorem lidx_v0 (r : Fin 1000000) (q k : Fin 64) : lidx_main_v0 (ix2 r q) k = ix2 r k :=
  funext fun a => Fin.ext (by match a with | ⟨0, _⟩ => rfl | ⟨1, _⟩ => rfl)
theorem ridx_v0 (r : Fin 1000000) (q k : Fin 64) : ridx_main_v0 (ix2 r q) k = ix2 k q :=
  funext fun a => Fin.ext (by match a with | ⟨0, _⟩ => rfl | ⟨1, _⟩ => rfl)
theorem lidx_v1 (r : Fin 1000000) (q k : Fin 64) : lidx_main_v1 (ix2 r q) k = ix2 r k :=
  funext fun a => Fin.ext (by match a with | ⟨0, _⟩ => rfl | ⟨1, _⟩ => rfl)
theorem ridx_v1 (r : Fin 1000000) (q k : Fin 64) : ridx_main_v1 (ix2 r q) k = ix2 k q :=
  funext fun a => Fin.ext (by match a with | ⟨0, _⟩ => rfl | ⟨1, _⟩ => rfl)
theorem lidx_v14 (r : Fin 1000000) (q k : Fin 64) : lidx_main_v14 (ix2 r q) k = ix2 r k :=
  funext fun a => Fin.ext (by match a with | ⟨0, _⟩ => rfl | ⟨1, _⟩ => rfl)
theorem ridx_v14 (r : Fin 1000000) (q k : Fin 64) : ridx_main_v14 (ix2 r q) k = ix2 k q :=
  funext fun a => Fin.ext (by match a with | ⟨0, _⟩ => rfl | ⟨1, _⟩ => rfl)
theorem lidx_v15 (r : Fin 1000000) (q k : Fin 64) : lidx_main_v15 (ix2 r q) k = ix2 r k :=
  funext fun a => Fin.ext (by match a with | ⟨0, _⟩ => rfl | ⟨1, _⟩ => rfl)
theorem ridx_v15 (r : Fin 1000000) (q k : Fin 64) : ridx_main_v15 (ix2 r q) k = ix2 k q :=
  funext fun a => Fin.ext (by match a with | ⟨0, _⟩ => rfl | ⟨1, _⟩ => rfl)

theorem idx_bcast_col (r : Fin 1000000) (q : Fin 64) : idx_main_v11 (idx_main_v12 (ix2 r q)) = ix1 q :=
  funext fun a => Fin.ext (by match a with | ⟨0, _⟩ => rfl)
theorem idx_norm_col (r : Fin 1000000) (q : Fin 64) : idx_main_v23 (idx_main_v27 (ix2 r q)) = ix1 q :=
  funext fun a => Fin.ext (by match a with | ⟨0, _⟩ => rfl)
theorem idx_sum_v9 (q : Fin 64) (k : Fin 1000000) : idx_main_v9 (ix1 q) k = ix2 k q :=
  funext fun a => Fin.ext (by match a with | ⟨0, _⟩ => rfl | ⟨1, _⟩ => rfl)
theorem idx_sum_v22 (q : Fin 64) (k : Fin 1000000) : idx_main_v22 (ix1 q) k = ix2 k q :=
  funext fun a => Fin.ext (by match a with | ⟨0, _⟩ => rfl | ⟨1, _⟩ => rfl)

/-! ## The updated embedding -/

/-- The column scale: w q times the column sum of e_o. -/
theorem scale_at (q : Fin 64) : val_main_v10 (F := Ideal) x1 x6 (ix1 q) = scale x1 x6 q := by
  rw [val_main_v10_apply, val_main_v9_apply, val_main_cst_1_apply]
  simp only [idx_sum_v9, Ideal.mulf_def, Ideal.ofBits_def, Ideal.ofBits_zero_f32, zero_add]
  rfl

/-- `%20` at (r, q) is the updated embedding there. -/
theorem upd_at (r : Fin 1000000) (q : Fin 64) :
    val_main_v20 (F := Ideal) x0 x1 x2 x3 x4 x5 x6 (ix2 r q) = upd x0 x1 x2 x3 x4 x5 (scale x1 x6) r q := by
  rw [val_main_v20_apply, val_main_v19_apply, val_main_v18_apply, val_main_v17_apply, val_main_v16_apply,
    val_main_v14_apply, val_main_v15_apply, val_main_v13_apply, val_main_v12_apply, val_main_v11_apply,
    val_main_call0_v0_apply, val_main_call0_cst_apply, val_main_v8_apply, val_main_v7_apply, val_main_cst_0_apply,
    val_main_v6_apply, val_main_v5_apply, val_main_cst_apply, val_main_v4_apply, val_main_v3_apply, val_main_v2_apply,
    val_main_v0_apply, val_main_v1_apply, idx_bcast_col, scale_at]
  simp only [lidx_v0, ridx_v0, lidx_v1, ridx_v1, lidx_v14, ridx_v14, lidx_v15, ridx_v15, Ideal.addf_def, Ideal.mulf_def,
    Ideal.maximumf_def, Ideal.hostDivf_def, Ideal.hostUnary_exp_def, Ideal.hostNegf_def, Ideal.negf_def, Ideal.ofBits_def,
    Ideal.ofBits_zero_f32]
  rfl

/-! ## The column norms and the result -/

/-- `%22` at column q is the column sum of the squares of the updated embedding. -/
theorem sumsq_at (q : Fin 64) :
    val_main_v22 (F := Ideal) x0 x1 x2 x3 x4 x5 x6 (ix1 q) = sumSq x0 x1 x2 x3 x4 x5 (scale x1 x6) q := by
  rw [val_main_v22_apply, val_main_cst_2_apply]
  simp only [idx_sum_v22, val_main_v21_apply, upd_at, Ideal.mulf_def, Ideal.ofBits_def, Ideal.ofBits_zero_f32, zero_add]
  rfl

/-- The reference's result is `result` of its arguments. -/
theorem result_eq : val_main_v28 (F := Ideal) x0 x1 x2 x3 x4 x5 x6 = result x0 x1 x2 x3 x4 x5 x6 := by
  funext i
  obtain ⟨r, q, rfl⟩ : ∃ (r : Fin 1000000) (q : Fin 64), i = ix2 r q := ⟨i 0, i 1, eq_ix2 i⟩
  rw [val_main_v28_apply, val_main_v27_apply, val_main_v26_apply, val_main_v25_apply, val_main_cst_3_apply,
    val_main_v24_apply, val_main_v23_apply, idx_norm_col, sumsq_at, upd_at]
  simp only [Ideal.hostDivf_def, Ideal.maximumf_def, Ideal.hostUnary_sqrt_def, Ideal.ofBits_def]
  rfl

end Cert.ReferenceIdeal.RefValue

end
-- ==== Proof.lean ====
/-
  The kernel computes, in three passes over the 250 blocks of 4000 rows, (1) the column sums of e_o, (2) the column
  sums of the squares of the updated embedding
      upd = e_s + max (e_s W1 + e_o W2 + e_s · (w · colSum e_o)) 0 · 1 / (1 + exp (-(e_s V1 + e_o V2))),
  and, after a host square root, (3) upd divided column by column by max (column norm, 1e-12). The reference computes
  the same quantities with whole-array operations. Over the extended reals the two agree: a change of float format is
  the identity, a matrix product is the sum over the contraction coordinate on both sides, the kernel's `0 - z` is
  `-z`, and a column sum accumulated block by block is the column sum over all rows (addition is associative and
  commutative; no finiteness is needed). The common value is `GatedUpdate.result` of the seven arguments.

  The ideal pass rewrote nothing, so the idealization claim is trivial; the three frames are the generated runs.
-/
import proofs.«148514_j89859305767507_1_alg».proof.Defs
import proofs.«148514_j89859305767507_1_alg».proof.Proof.Gen.Kernel
import proofs.«148514_j89859305767507_1_alg».proof.Proof.Gen.Kernel.Skeleton
import proofs.«148514_j89859305767507_1_alg».proof.Proof.Gen.Kernel.Launch
import proofs.«148514_j89859305767507_1_alg».proof.Proof.Gen.Kernel.Points
import proofs.«148514_j89859305767507_1_alg».proof.Proof.Gen.Kernel.Frame
import proofs.«148514_j89859305767507_1_alg».proof.Proof.Gen.KernelIdeal
import proofs.«148514_j89859305767507_1_alg».proof.Proof.Gen.KernelIdeal.Skeleton
import proofs.«148514_j89859305767507_1_alg».proof.Proof.Gen.KernelIdeal.Launch
import proofs.«148514_j89859305767507_1_alg».proof.Proof.Gen.KernelIdeal.Points
import proofs.«148514_j89859305767507_1_alg».proof.Proof.Gen.KernelIdeal.Frame
import proofs.«148514_j89859305767507_1_alg».proof.Proof.Gen.ReferenceIdeal
import proofs.«148514_j89859305767507_1_alg».proof.Proof.Gen.ReferenceIdeal.Run
import proofs.«148514_j89859305767507_1_alg».proof.Proof.Gen.ReferenceIdeal.Read
import proofs.«148514_j89859305767507_1_alg».proof.Proof.Gen.Pre_finite_inputs
import proofs.«148514_j89859305767507_1_alg».proof.Proof.RunNamed
import proofs.«148514_j89859305767507_1_alg».proof.Proof.Walk
import proofs.«148514_j89859305767507_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `GatedUpdate.result` of the arguments: the kernel by the three regions'
    values traced back to the launch memory, the reference by its operations read one at a time. -/
theorem algebraic : Cert.algebraic_KernelIdeal_ReferenceIdeal := by
  intro m ρ m' ρ' _ hagree
  refine ⟨fun c => GatedUpdate.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Walk.result_eq m ρ c), (h c).2⟩)
      (Cert.KernelIdeal.RunNamed.run_named (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v28_eq, Cert.ReferenceIdeal.RefValue.result_eq,
      (hagree c).1, (hagree c).2.1, (hagree c).2.2.1, (hagree c).2.2.2.1, (hagree c).2.2.2.2.1,
      (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
